-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S540672x256 : Shape := ⟨2, ![540672, 256]⟩
abbrev S506880 : Shape := ⟨1, ![506880]⟩
abbrev S30720 : Shape := ⟨1, ![30720]⟩
abbrev S2560 : Shape := ⟨1, ![2560]⟩
abbrev S256x1024 : Shape := ⟨2, ![256, 1024]⟩
abbrev S1024 : Shape := ⟨1, ![1024]⟩
abbrev S1024x1024 : Shape := ⟨2, ![1024, 1024]⟩
abbrev S1024x47 : Shape := ⟨2, ![1024, 47]⟩
abbrev S47 : Shape := ⟨1, ![47]⟩
abbrev S_ : Shape := ⟨0, ![]⟩

class Facts : Prop where
  bcast_S_S540672x256 : S_.BroadcastsInDim S540672x256 (![] : Fin 0 → Fin S540672x256.rank)
  reducesTo_S540672x256_S_d0_1 : S540672x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x47 : S_.BroadcastsInDim S1024x47 (![] : Fin 0 → Fin S1024x47.rank)
  reducesTo_S1024x47_S_d0_1 : S1024x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S1024x47 .f32) (main_arg14 : FVec F S1024x47 .f32) (main_arg15 : FVec F S47 .f32) (main_v33 : IVec S_ 1) : IVec S_ 1 :=
  let main_v34 : FVec F S1024x47 .f32 := Host.absf main_arg13
  let main_cst_12 : FVec F S_ .f32 := constant S_ .f32 0x7F800000#32
  let main_v35 : FVec F S1024x47 .f32 := broadcastInDim S1024x47 ![] bcast_S_S1024x47 main_cst_12
  let main_v36 : IVec S1024x47 1 := cmpf .olt main_v34 main_v35
  let main_c_13 : IVec S_ 1 := constantI S_ 1 1#1
  let main_v37 : IVec S_ 1 := (fun x v => Host.reduce IntOp.andi x v reducesTo_S1024x47_S_d0_1 h_S_) main_v36 main_c_13
  let main_v38 : IVec S_ 1 := andi main_v33 main_v37
  let main_v39 : FVec F S1024x47 .f32 := Host.absf main_arg14
  let main_cst_14 : FVec F S_ .f32 := constant S_ .f32 0x7F800000#32
  let main_v40 : FVec F S1024x47 .f32 := broadcastInDim S1024x47 ![] bcast_S_S1024x47 main_cst_14
  let main_v41 : IVec S1024x47 1 := cmpf .olt main_v39 main_v40
  let main_c_15 : IVec S_ 1 := constantI S_ 1 1#1
  let main_v42 : IVec S_ 1 := (fun x v => Host.reduce IntOp.andi x v reducesTo_S1024x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S1024x1024 .f32) (main_arg11 : FVec F S1024x1024 .f32) (main_arg12 : FVec F S1024 .f32) (main_arg13 : FVec F S1024x47 .f32) (main_arg14 : FVec F S1024x47 .f32) (main_arg15 : FVec F S47 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg10
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg11
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg12
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg13 main_arg14 main_arg15 main_v33

def fn {F : FTy → Type} [FloatOps F] (main_arg0 : FVec F S540672x256 .f32) (main_arg1 : IVec S506880 32) (main_arg2 : IVec S506880 32) (main_arg3 : IVec S30720 32) (main_arg4 : IVec S30720 32) (main_arg5 : IVec S2560 32) (main_arg6 : IVec S2560 32) (main_arg7 : FVec F S256x1024 .f32) (main_arg8 : FVec F S256x1024 .f32) (main_arg9 : FVec F S1024 .f32) (main_arg10 : FVec F S1024x1024 .f32) (main_arg11 : FVec F S1024x1024 .f32) (main_arg12 : FVec F S1024 .f32) (main_arg13 : FVec F S1024x47 .f32) (main_arg14 : FVec F S1024x47 .f32) (main_arg15 : FVec F S47 .f32) : IVec S_ 1 :=
  let main_v0 : FVec F S540672x256 .f32 := Host.absf main_arg0
  let main_cst : FVec F S_ .f32 := constant S_ .f32 0x7F800000#32
  let main_v1 : FVec F S540672x256 .f32 := broadcastInDim S540672x256 ![] bcast_S_S540672x256 main_cst
  let main_v2 : IVec S540672x256 1 := cmpf .olt main_v0 main_v1
  let main_c : IVec S_ 1 := constantI S_ 1 1#1
  let main_v3 : IVec S_ 1 := (fun x v => Host.reduce IntOp.andi x v reducesTo_S540672x256_S_d0_1 h_S_) main_v2 main_c
  let main_v4 : FVec F S256x1024 .f32 := Host.absf main_arg7
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg8
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024 .f32 := Host.absf main_arg9
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg10 main_arg11 main_arg12 main_arg13 main_arg14 main_arg15 main_v13 main_v16
-- ==== Kernel.lean ====
abbrev S540672x256 : Shape := ⟨2, ![540672, 256]⟩
abbrev S506880 : Shape := ⟨1, ![506880]⟩
abbrev S30720 : Shape := ⟨1, ![30720]⟩
abbrev S2560 : Shape := ⟨1, ![2560]⟩
abbrev S256x1024 : Shape := ⟨2, ![256, 1024]⟩
abbrev S1024 : Shape := ⟨1, ![1024]⟩
abbrev S1024x1024 : Shape := ⟨2, ![1024, 1024]⟩
abbrev S1024x47 : Shape := ⟨2, ![1024, 47]⟩
abbrev S47 : Shape := ⟨1, ![47]⟩
abbrev S_ : Shape := ⟨0, ![]⟩
abbrev S506880x1 : Shape := ⟨2, ![506880, 1]⟩
abbrev S506880x256 : Shape := ⟨2, ![506880, 256]⟩
abbrev S33792x256 : Shape := ⟨2, ![33792, 256]⟩
abbrev S33792 : Shape := ⟨1, ![33792]⟩
abbrev S33792x1 : Shape := ⟨2, ![33792, 1]⟩
abbrev S33792x512 : Shape := ⟨2, ![33792, 512]⟩
abbrev S512x1024 : Shape := ⟨2, ![512, 1024]⟩
abbrev S1x1024 : Shape := ⟨2, ![1, 1024]⟩
abbrev S33792x1024 : Shape := ⟨2, ![33792, 1024]⟩
abbrev S1024x512 : Shape := ⟨2, ![1024, 512]⟩
abbrev S30720x1 : Shape := ⟨2, ![30720, 1]⟩
abbrev S30720x1024 : Shape := ⟨2, ![30720, 1024]⟩
abbrev S3072x1024 : Shape := ⟨2, ![3072, 1024]⟩
abbrev S3072 : Shape := ⟨1, ![3072]⟩
abbrev S3072x1 : Shape := ⟨2, ![3072, 1]⟩
abbrev S3072x2048 : Shape := ⟨2, ![3072, 2048]⟩
abbrev S2048x1024 : Shape := ⟨2, ![2048, 1024]⟩
abbrev S1024x2048 : Shape := ⟨2, ![1024, 2048]⟩
abbrev S2560x1 : Shape := ⟨2, ![2560, 1]⟩
abbrev S2560x1024 : Shape := ⟨2, ![2560, 1024]⟩
abbrev S512 : Shape := ⟨1, ![512]⟩
abbrev S512x1 : Shape := ⟨2, ![512, 1]⟩
abbrev S512x2048 : Shape := ⟨2, ![512, 2048]⟩
abbrev S2048x47 : Shape := ⟨2, ![2048, 47]⟩
abbrev S1x47 : Shape := ⟨2, ![1, 47]⟩
abbrev S512x47 : Shape := ⟨2, ![512, 47]⟩

abbrev nBuf : Space → Nat
  | .hbm => 112
  | .vmem => 16
  | .smem => 0
  | _ => 0

abbrev bufTy : (tb : Table) → Fin (tcTables nBuf tb) → BufTy
  | .hbm, ⟨0, _⟩ => ⟨S540672x256, .f32⟩
  | .hbm, ⟨1, _⟩ => ⟨S506880, .i32⟩
  | .hbm, ⟨2, _⟩ => ⟨S506880, .i32⟩
  | .hbm, ⟨3, _⟩ => ⟨S30720, .i32⟩
  | .hbm, ⟨4, _⟩ => ⟨S30720, .i32⟩
  | .hbm, ⟨5, _⟩ => ⟨S2560, .i32⟩
  | .hbm, ⟨6, _⟩ => ⟨S2560, .i32⟩
  | .hbm, ⟨7, _⟩ => ⟨S256x1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x47, .f32⟩
  | .hbm, ⟨14, _⟩ => ⟨S1024x47, .f32⟩
  | .hbm, ⟨15, _⟩ => ⟨S47, .f32⟩
  | .hbm, ⟨16, _⟩ => ⟨S_, .i32⟩
  | .hbm, ⟨17, _⟩ => ⟨S506880, .i32⟩
  | .hbm, ⟨18, _⟩ => ⟨S506880, .i1⟩
  | .hbm, ⟨19, _⟩ => ⟨S_, .i32⟩
  | .hbm, ⟨20, _⟩ => ⟨S506880, .i32⟩
  | .hbm, ⟨21, _⟩ => ⟨S506880, .i32⟩
  | .hbm, ⟨22, _⟩ => ⟨S506880, .i32⟩
  | .hbm, ⟨23, _⟩ => ⟨S506880x1, .i32⟩
  | .hbm, ⟨24, _⟩ => ⟨S506880x256, .f32⟩
  | .hbm, ⟨25, _⟩ => ⟨S_, .f32⟩
  | .hbm, ⟨26, _⟩ => ⟨S33792x256, .f32⟩
  | .hbm, ⟨27, _⟩ => ⟨S506880x1, .i32⟩
  | .hbm, ⟨28, _⟩ => ⟨S33792x256, .f32⟩
  | .hbm, ⟨29, _⟩ => ⟨S_, .f32⟩
  | .hbm, ⟨30, _⟩ => ⟨S506880, .f32⟩
  | .hbm, ⟨31, _⟩ => ⟨S_, .f32⟩
  | .hbm, ⟨32, _⟩ => ⟨S33792, .f32⟩
  | .hbm, ⟨33, _⟩ => ⟨S506880x1, .i32⟩
  | .hbm, ⟨34, _⟩ => ⟨S33792, .f32⟩
  | .hbm, ⟨35, _⟩ => ⟨S_, .f32⟩
  | .hbm, ⟨36, _⟩ => ⟨S33792, .f32⟩
  | .hbm, ⟨37, _⟩ => ⟨S33792, .f32⟩
  | .hbm, ⟨38, _⟩ => ⟨S33792x1, .f32⟩
  | .hbm, ⟨39, _⟩ => ⟨S33792x256, .f32⟩
  | .hbm, ⟨40, _⟩ => ⟨S33792x256, .f32⟩
  | .hbm, ⟨41, _⟩ => ⟨S33792x256, .f32⟩
  | .hbm, ⟨42, _⟩ => ⟨S33792x512, .f32⟩
  | .hbm, ⟨43, _⟩ => ⟨S512x1024, .f32⟩
  | .hbm, ⟨44, _⟩ => ⟨S33792x512, .bf16⟩
  | .hbm, ⟨45, _⟩ => ⟨S512x1024, .bf16⟩
  | .hbm, ⟨46, _⟩ => ⟨S1x1024, .f32⟩
  | .hbm, ⟨47, _⟩ => ⟨S33792x1024, .f32⟩
  | .hbm, ⟨48, _⟩ => ⟨S_, .i32⟩
  | .hbm, ⟨49, _⟩ => ⟨S30720, .i32⟩
  | .hbm, ⟨50, _⟩ => ⟨S30720, .i1⟩
  | .hbm, ⟨51, _⟩ => ⟨S_, .i32⟩
  | .hbm, ⟨52, _⟩ => ⟨S30720, .i32⟩
  | .hbm, ⟨53, _⟩ => ⟨S30720, .i32⟩
  | .hbm, ⟨54, _⟩ => ⟨S30720, .i32⟩
  | .hbm, ⟨55, _⟩ => ⟨S30720x1, .i32⟩
  | .hbm, ⟨56, _⟩ => ⟨S30720x1024, .f32⟩
  | .hbm, ⟨57, _⟩ => ⟨S_, .f32⟩
  | .hbm, ⟨58, _⟩ => ⟨S3072x1024, .f32⟩
  | .hbm, ⟨59, _⟩ => ⟨S30720x1, .i32⟩
  | .hbm, ⟨60, _⟩ => ⟨S3072x1024, .f32⟩
  | .hbm, ⟨61, _⟩ => ⟨S_, .f32⟩
  | .hbm, ⟨62, _⟩ => ⟨S30720, .f32⟩
  | .hbm, ⟨63, _⟩ => ⟨S_, .f32⟩
  | .hbm, ⟨64, _⟩ => ⟨S3072, .f32⟩
  | .hbm, ⟨65, _⟩ => ⟨S30720x1, .i32⟩
  | .hbm, ⟨66, _⟩ => ⟨S3072, .f32⟩
  | .hbm, ⟨67, _⟩ => ⟨S_, .f32⟩
  | .hbm, ⟨68, _⟩ => ⟨S3072, .f32⟩
  | .hbm, ⟨69, _⟩ => ⟨S3072, .f32⟩
  | .hbm, ⟨70, _⟩ => ⟨S3072x1, .f32⟩
  | .hbm, ⟨71, _⟩ => ⟨S3072x1024, .f32⟩
  | .hbm, ⟨72, _⟩ => ⟨S3072x1024, .f32⟩
  | .hbm, ⟨73, _⟩ => ⟨S3072x1024, .f32⟩
  | .hbm, ⟨74, _⟩ => ⟨S3072x2048, .f32⟩
  | .hbm, ⟨75, _⟩ => ⟨S2048x1024, .f32⟩
  | .hbm, ⟨76, _⟩ => ⟨S3072x2048, .bf16⟩
  | .hbm, ⟨77, _⟩ => ⟨S2048x1024, .bf16⟩
  | .hbm, ⟨78, _⟩ => ⟨S1x1024, .f32⟩
  | .hbm, ⟨79, _⟩ => ⟨S3072x1024, .f32⟩
  | .hbm, ⟨80, _⟩ => ⟨S_, .i32⟩
  | .hbm, ⟨81, _⟩ => ⟨S2560, .i32⟩
  | .hbm, ⟨82, _⟩ => ⟨S2560, .i1⟩
  | .hbm, ⟨83, _⟩ => ⟨S_, .i32⟩
  | .hbm, ⟨84, _⟩ => ⟨S2560, .i32⟩
  | .hbm, ⟨85, _⟩ => ⟨S2560, .i32⟩
  | .hbm, ⟨86, _⟩ => ⟨S2560, .i32⟩
  | .hbm, ⟨87, _⟩ => ⟨S2560x1, .i32⟩
  | .hbm, ⟨88, _⟩ => ⟨S2560x1024, .f32⟩
  | .hbm, ⟨89, _⟩ => ⟨S_, .f32⟩
  | .hbm, ⟨90, _⟩ => ⟨S512x1024, .f32⟩
  | .hbm, ⟨91, _⟩ => ⟨S2560x1, .i32⟩
  | .hbm, ⟨92, _⟩ => ⟨S512x1024, .f32⟩
  | .hbm, ⟨93, _⟩ => ⟨S_, .f32⟩
  | .hbm, ⟨94, _⟩ => ⟨S2560, .f32⟩
  | .hbm, ⟨95, _⟩ => ⟨S_, .f32⟩
  | .hbm, ⟨96, _⟩ => ⟨S512, .f32⟩
  | .hbm, ⟨97, _⟩ => ⟨S2560x1, .i32⟩
  | .hbm, ⟨98, _⟩ => ⟨S512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512x1, .f32⟩
  | .hbm, ⟨103, _⟩ => ⟨S512x1024, .f32⟩
  | .hbm, ⟨104, _⟩ => ⟨S512x1024, .f32⟩
  | .hbm, ⟨105, _⟩ => ⟨S512x1024, .f32⟩
  | .hbm, ⟨106, _⟩ => ⟨S512x2048, .f32⟩
  | .hbm, ⟨107, _⟩ => ⟨S2048x47, .f32⟩
  | .hbm, ⟨108, _⟩ => ⟨S512x2048, .bf16⟩
  | .hbm, ⟨109, _⟩ => ⟨S2048x47, .bf16⟩
  | .hbm, ⟨110, _⟩ => ⟨S1x47, .f32⟩
  | .hbm, ⟨111, _⟩ => ⟨S512x47, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S512x2048, .bf16⟩
  | .local _ .vmem, ⟨13, _⟩ => ⟨S2048x47, .bf16⟩
  | .local _ .vmem, ⟨14, _⟩ => ⟨S1x47, .f32⟩
  | .local _ .vmem, ⟨15, _⟩ => ⟨S512x47, .f32⟩
  | _, _ => ⟨S540672x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2048x47 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  bcast_S_S506880 : S_.BroadcastsInDim S506880 (![] : Fin 0 → Fin S506880.rank)
  bcast_S506880_S506880x1_0 : S506880.BroadcastsInDim S506880x1 (![0] : Fin 1 → Fin S506880x1.rank)
  bcast_S_S33792x256 : S_.BroadcastsInDim S33792x256 (![] : Fin 0 → Fin S33792x256.rank)
  bcast_S_S33792 : S_.BroadcastsInDim S33792 (![] : Fin 0 → Fin S33792.rank)
  bcast_S33792_S33792x1_0 : S33792.BroadcastsInDim S33792x1 (![0] : Fin 1 → Fin S33792x1.rank)
  bcast_S33792x1_S33792x256_0_1 : S33792x1.BroadcastsInDim S33792x256 (![0, 1] : Fin 2 → Fin S33792x256.rank)
  slices_S540672x256_S33792x256_0_0 : S540672x256.Slices ![0, 0] S33792x256
  concatenates_S33792x256_S33792x256_S33792x512_d1 : Shape.Concatenates [S33792x256, S33792x256] S33792x512 1
  concatenates_S256x1024_S256x1024_S512x1024_d0 : Shape.Concatenates [S256x1024, S256x1024] S512x1024 0
  bitsLt_bf16_f32 : FTy.bits .bf16 < FTy.bits .f32
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  bcast_S_S30720 : S_.BroadcastsInDim S30720 (![] : Fin 0 → Fin S30720.rank)
  bcast_S30720_S30720x1_0 : S30720.BroadcastsInDim S30720x1 (![0] : Fin 1 → Fin S30720x1.rank)
  bcast_S_S3072x1024 : S_.BroadcastsInDim S3072x1024 (![] : Fin 0 → Fin S3072x1024.rank)
  bcast_S_S3072 : S_.BroadcastsInDim S3072 (![] : Fin 0 → Fin S3072.rank)
  bcast_S3072_S3072x1_0 : S3072.BroadcastsInDim S3072x1 (![0] : Fin 1 → Fin S3072x1.rank)
  bcast_S3072x1_S3072x1024_0_1 : S3072x1.BroadcastsInDim S3072x1024 (![0, 1] : Fin 2 → Fin S3072x1024.rank)
  slices_S33792x1024_S3072x1024_0_0 : S33792x1024.Slices ![0, 0] S3072x1024
  concatenates_S3072x1024_S3072x1024_S3072x2048_d1 : Shape.Concatenates [S3072x1024, S3072x1024] S3072x2048 1
  concatenates_S1024x1024_S1024x1024_S2048x1024_d0 : Shape.Concatenates [S1024x1024, S1024x1024] S2048x1024 0
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bcast_S_S2560 : S_.BroadcastsInDim S2560 (![] : Fin 0 → Fin S2560.rank)
  bcast_S2560_S2560x1_0 : S2560.BroadcastsInDim S2560x1 (![0] : Fin 1 → Fin S2560x1.rank)
  bcast_S_S512x1024 : S_.BroadcastsInDim S512x1024 (![] : Fin 0 → Fin S512x1024.rank)
  bcast_S_S512 : S_.BroadcastsInDim S512 (![] : Fin 0 → Fin S512.rank)
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  slices_S3072x1024_S512x1024_0_0 : S3072x1024.Slices ![0, 0] S512x1024
  concatenates_S512x1024_S512x1024_S512x2048_d1 : Shape.Concatenates [S512x1024, S512x1024] S512x2048 1
  concatenates_S1024x47_S1024x47_S2048x47_d0 : Shape.Concatenates [S1024x47, S1024x47] S2048x47 0
  shapeCasts_S47_S1x47 : S47.ShapeCasts S1x47
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x47_S2048x47_0_0 : ∀ a, (![0, 0] : Fin 2 → Nat) a + S2048x47.size a ≤ S2048x47.size a
  h_S2048x47 : 0 < S2048x47.numel
  shapeCasts_S2048x47_S2048x47 : S2048x47.ShapeCasts S2048x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S512x47 : S1x47.Broadcasts S512x47
  inb_S512x47_S512x47_0_0 : ∀ a, (![0, 0] : Fin 2 → Nat) a + S512x47.size a ≤ S512x47.size a
  h_S512x47 : 0 < S512x47.numel
  gather_S540672x256_S506880x1_S506880x256_1_0_n_n_0_1_1256_wf : GatherDims.WF S540672x256 S506880x1 S506880x256 [1] [0] [] [0] [] 1 ![1, 256]
  scatter_S33792x256_S506880x1_S506880x256_1_0_0_1_wf : ScatterDims.WF S33792x256 S506880x1 S506880x256 [1] [0] [0] 1
  scatter_S33792_S506880x1_S506880_n_0_0_1_wf : ScatterDims.WF S33792 S506880x1 S506880 [] [0] [0] 1
  dot_S1024x512_S512x1024_S1024x1024_1_0_0_1_n_n_wf : DotDims.WF S1024x512 S512x1024 S1024x1024 [1] [0] [0] [1] [] []
  gather_S33792x1024_S30720x1_S30720x1024_1_0_n_n_0_1_11024_wf : GatherDims.WF S33792x1024 S30720x1 S30720x1024 [1] [0] [] [0] [] 1 ![1, 1024]
  scatter_S3072x1024_S30720x1_S30720x1024_1_0_0_1_wf : ScatterDims.WF S3072x1024 S30720x1 S30720x1024 [1] [0] [0] 1
  scatter_S3072_S30720x1_S30720_n_0_0_1_wf : ScatterDims.WF S3072 S30720x1 S30720 [] [0] [0] 1
  dot_S1024x2048_S2048x1024_S1024x1024_1_0_0_1_n_n_wf : DotDims.WF S1024x2048 S2048x1024 S1024x1024 [1] [0] [0] [1] [] []
  gather_S3072x1024_S2560x1_S2560x1024_1_0_n_n_0_1_11024_wf : GatherDims.WF S3072x1024 S2560x1 S2560x1024 [1] [0] [] [0] [] 1 ![1, 1024]
  scatter_S512x1024_S2560x1_S2560x1024_1_0_0_1_wf : ScatterDims.WF S512x1024 S2560x1 S2560x1024 [1] [0] [0] 1
  scatter_S512_S2560x1_S2560_n_0_0_1_wf : ScatterDims.WF S512 S2560x1 S2560 [] [0] [0] 1
  dot_S512x2048_S2048x47_S512x47_1_0_0_1_n_n_wf : DotDims.WF S512x2048 S2048x47 S512x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S33792x512.size a
  hwx0_0 : ∀ i : grid0.Coords, EltTy.bits .bf16 = 32 ∨ (Rect.block (s := S33792x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S33792x1024.size a
  hwx0_3 : ∀ i : grid0.Coords, EltTy.bits .f32 = 32 ∨ (Rect.block (s := S33792x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S3072x2048.size a
  hwx1_0 : ∀ i : grid1.Coords, EltTy.bits .bf16 = 32 ∨ (Rect.block (s := S3072x2048) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S3072x1024.size a
  hwx1_3 : ∀ i : grid1.Coords, EltTy.bits .f32 = 32 ∨ (Rect.block (s := S3072x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S512x2048.size a
  hwx2_0 : ∀ i : grid2.Coords, EltTy.bits .bf16 = 32 ∨ (Rect.block (s := S512x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x47.size a ≤ S2048x47.size a
  hwx2_1 : ∀ i : grid2.Coords, EltTy.bits .bf16 = 32 ∨ (Rect.block (s := S2048x47) S2048x47.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x47.size a ≤ S1x47.size a
  hwx2_2 : ∀ i : grid2.Coords, EltTy.bits .f32 = 32 ∨ (Rect.block (s := S1x47) S1x47.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S512x47.size a ≤ S512x47.size a
  hwx2_3 : ∀ i : grid2.Coords, EltTy.bits .f32 = 32 ∨ (Rect.block (s := S512x47) S512x47.size (cc2_transform_3 i) (hinb2_3 i)).WholeWords (EltTy.packing .f32)

variable [Facts₀]

def gather_S540672x256_S506880x1_S506880x256_1_0_n_n_0_1_1256 : GatherDims S540672x256 S506880x1 S506880x256 where
  offsetDims := [1]
  collapsedSliceDims := [0]
  operandBatchingDims := []
  startIndicesBatchingDims := []
  startIndexMap := [0]
  indexVectorDim := 1
  sliceSizes := ![1, 256]
  wf := gather_S540672x256_S506880x1_S506880x256_1_0_n_n_0_1_1256_wf
def scatter_S33792x256_S506880x1_S506880x256_1_0_0_1 : ScatterDims S33792x256 S506880x1 S506880x256 where
  updateWindowDims := [1]
  insertedWindowDims := [0]
  scatterDimsToOperandDims := [0]
  indexVectorDim := 1
  wf := scatter_S33792x256_S506880x1_S506880x256_1_0_0_1_wf
def scatter_S33792_S506880x1_S506880_n_0_0_1 : ScatterDims S33792 S506880x1 S506880 where
  updateWindowDims := []
  insertedWindowDims := [0]
  scatterDimsToOperandDims := [0]
  indexVectorDim := 1
  wf := scatter_S33792_S506880x1_S506880_n_0_0_1_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S33792x1024_S30720x1_S30720x1024_1_0_n_n_0_1_11024 : GatherDims S33792x1024 S30720x1 S30720x1024 where
  offsetDims := [1]
  collapsedSliceDims := [0]
  operandBatchingDims := []
  startIndicesBatchingDims := []
  startIndexMap := [0]
  indexVectorDim := 1
  sliceSizes := ![1, 1024]
  wf := gather_S33792x1024_S30720x1_S30720x1024_1_0_n_n_0_1_11024_wf
def scatter_S3072x1024_S30720x1_S30720x1024_1_0_0_1 : ScatterDims S3072x1024 S30720x1 S30720x1024 where
  updateWindowDims := [1]
  insertedWindowDims := [0]
  scatterDimsToOperandDims := [0]
  indexVectorDim := 1
  wf := scatter_S3072x1024_S30720x1_S30720x1024_1_0_0_1_wf
def scatter_S3072_S30720x1_S30720_n_0_0_1 : ScatterDims S3072 S30720x1 S30720 where
  updateWindowDims := []
  insertedWindowDims := [0]
  scatterDimsToOperandDims := [0]
  indexVectorDim := 1
  wf := scatter_S3072_S30720x1_S30720_n_0_0_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def gather_S3072x1024_S2560x1_S2560x1024_1_0_n_n_0_1_11024 : GatherDims S3072x1024 S2560x1 S2560x1024 where
  offsetDims := [1]
  collapsedSliceDims := [0]
  operandBatchingDims := []
  startIndicesBatchingDims := []
  startIndexMap := [0]
  indexVectorDim := 1
  sliceSizes := ![1, 1024]
  wf := gather_S3072x1024_S2560x1_S2560x1024_1_0_n_n_0_1_11024_wf
def scatter_S512x1024_S2560x1_S2560x1024_1_0_0_1 : ScatterDims S512x1024 S2560x1 S2560x1024 where
  updateWindowDims := [1]
  insertedWindowDims := [0]
  scatterDimsToOperandDims := [0]
  indexVectorDim := 1
  wf := scatter_S512x1024_S2560x1_S2560x1024_1_0_0_1_wf
def scatter_S512_S2560x1_S2560_n_0_0_1 : ScatterDims S512 S2560x1 S2560 where
  updateWindowDims := []
  insertedWindowDims := [0]
  scatterDimsToOperandDims := [0]
  indexVectorDim := 1
  wf := scatter_S512_S2560x1_S2560_n_0_0_1_wf
def dot_S512x2048_S2048x47_S512x47_1_0_0_1_n_n : DotDims S512x2048 S2048x47 S512x47 where
  lhsContracting := [1]
  rhsContracting := [0]
  lhsNonContracting := [0]
  rhsNonContracting := [1]
  lhsBatch := []
  rhsBatch := []
  wf := dot_S512x2048_S2048x47_S512x47_1_0_0_1_n_n_wf

abbrev win0_0 : Pipeline.Window sig grid0 :=
  Pipeline.Window.ofSpec (Memref.whole main_v22) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v74) S512x2048.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v75) S2048x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S512x47.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S540672x256 : Shape := ⟨2, ![540672, 256]⟩
abbrev S506880 : Shape := ⟨1, ![506880]⟩
abbrev S30720 : Shape := ⟨1, ![30720]⟩
abbrev S2560 : Shape := ⟨1, ![2560]⟩
abbrev S256x1024 : Shape := ⟨2, ![256, 1024]⟩
abbrev S1024 : Shape := ⟨1, ![1024]⟩
abbrev S1024x1024 : Shape := ⟨2, ![1024, 1024]⟩
abbrev S1024x47 : Shape := ⟨2, ![1024, 47]⟩
abbrev S47 : Shape := ⟨1, ![47]⟩
abbrev S_ : Shape := ⟨0, ![]⟩
abbrev S506880x1 : Shape := ⟨2, ![506880, 1]⟩
abbrev S506880x256 : Shape := ⟨2, ![506880, 256]⟩
abbrev S33792x256 : Shape := ⟨2, ![33792, 256]⟩
abbrev S33792 : Shape := ⟨1, ![33792]⟩
abbrev S33792x1 : Shape := ⟨2, ![33792, 1]⟩
abbrev S33792x1024 : Shape := ⟨2, ![33792, 1024]⟩
abbrev S1x1024 : Shape := ⟨2, ![1, 1024]⟩
abbrev S30720x1 : Shape := ⟨2, ![30720, 1]⟩
abbrev S30720x1024 : Shape := ⟨2, ![30720, 1024]⟩
abbrev S3072x1024 : Shape := ⟨2, ![3072, 1024]⟩
abbrev S3072 : Shape := ⟨1, ![3072]⟩
abbrev S3072x1 : Shape := ⟨2, ![3072, 1]⟩
abbrev S2560x1 : Shape := ⟨2, ![2560, 1]⟩
abbrev S2560x1024 : Shape := ⟨2, ![2560, 1024]⟩
abbrev S512x1024 : Shape := ⟨2, ![512, 1024]⟩
abbrev S512 : Shape := ⟨1, ![512]⟩
abbrev S512x1 : Shape := ⟨2, ![512, 1]⟩
abbrev S512x47 : Shape := ⟨2, ![512, 47]⟩
abbrev S1x47 : Shape := ⟨2, ![1, 47]⟩

abbrev nBuf : Space → Nat
  | .hbm => 118
  | .vmem => 0
  | .smem => 0
  | _ => 0

abbrev bufTy : (tb : Table) → Fin (tcTables nBuf tb) → BufTy
  | .hbm, ⟨0, _⟩ => ⟨S540672x256, .f32⟩
  | .hbm, ⟨1, _⟩ => ⟨S506880, .i32⟩
  | .hbm, ⟨2, _⟩ => ⟨S506880, .i32⟩
  | .hbm, ⟨3, _⟩ => ⟨S30720, .i32⟩
  | .hbm, ⟨4, _⟩ => ⟨S30720, .i32⟩
  | .hbm, ⟨5, _⟩ => ⟨S2560, .i32⟩
  | .hbm, ⟨6, _⟩ => ⟨S2560, .i32⟩
  | .hbm, ⟨7, _⟩ => ⟨S256x1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x47, .f32⟩
  | .hbm, ⟨14, _⟩ => ⟨S1024x47, .f32⟩
  | .hbm, ⟨15, _⟩ => ⟨S47, .f32⟩
  | .hbm, ⟨16, _⟩ => ⟨S_, .i32⟩
  | .hbm, ⟨17, _⟩ => ⟨S506880, .i32⟩
  | .hbm, ⟨18, _⟩ => ⟨S506880, .i1⟩
  | .hbm, ⟨19, _⟩ => ⟨S_, .i32⟩
  | .hbm, ⟨20, _⟩ => ⟨S506880, .i32⟩
  | .hbm, ⟨21, _⟩ => ⟨S506880, .i32⟩
  | .hbm, ⟨22, _⟩ => ⟨S506880, .i32⟩
  | .hbm, ⟨23, _⟩ => ⟨S506880x1, .i32⟩
  | .hbm, ⟨24, _⟩ => ⟨S506880x256, .f32⟩
  | .hbm, ⟨25, _⟩ => ⟨S_, .f32⟩
  | .hbm, ⟨26, _⟩ => ⟨S33792x256, .f32⟩
  | .hbm, ⟨27, _⟩ => ⟨S506880x1, .i32⟩
  | .hbm, ⟨28, _⟩ => ⟨S33792x256, .f32⟩
  | .hbm, ⟨29, _⟩ => ⟨S_, .f32⟩
  | .hbm, ⟨30, _⟩ => ⟨S506880, .f32⟩
  | .hbm, ⟨31, _⟩ => ⟨S_, .f32⟩
  | .hbm, ⟨32, _⟩ => ⟨S33792, .f32⟩
  | .hbm, ⟨33, _⟩ => ⟨S506880x1, .i32⟩
  | .hbm, ⟨34, _⟩ => ⟨S33792, .f32⟩
  | .hbm, ⟨35, _⟩ => ⟨S_, .f32⟩
  | .hbm, ⟨36, _⟩ => ⟨S33792, .f32⟩
  | .hbm, ⟨37, _⟩ => ⟨S33792, .f32⟩
  | .hbm, ⟨38, _⟩ => ⟨S33792x1, .f32⟩
  | .hbm, ⟨39, _⟩ => ⟨S33792x256, .f32⟩
  | .hbm, ⟨40, _⟩ => ⟨S33792x256, .f32⟩
  | .hbm, ⟨41, _⟩ => ⟨S33792x256, .f32⟩
  | .hbm, ⟨42, _⟩ => ⟨S33792x1024, .f32⟩
  | .hbm, ⟨43, _⟩ => ⟨S33792x1024, .f32⟩
  | .hbm, ⟨44, _⟩ => ⟨S33792x1024, .f32⟩
  | .hbm, ⟨45, _⟩ => ⟨S1x1024, .f32⟩
  | .hbm, ⟨46, _⟩ => ⟨S33792x1024, .f32⟩
  | .hbm, ⟨47, _⟩ => ⟨S33792x1024, .f32⟩
  | .hbm, ⟨48, _⟩ => ⟨S_, .f32⟩
  | .hbm, ⟨49, _⟩ => ⟨S33792x1024, .f32⟩
  | .hbm, ⟨50, _⟩ => ⟨S33792x1024, .f32⟩
  | .hbm, ⟨51, _⟩ => ⟨S_, .i32⟩
  | .hbm, ⟨52, _⟩ => ⟨S30720, .i32⟩
  | .hbm, ⟨53, _⟩ => ⟨S30720, .i1⟩
  | .hbm, ⟨54, _⟩ => ⟨S_, .i32⟩
  | .hbm, ⟨55, _⟩ => ⟨S30720, .i32⟩
  | .hbm, ⟨56, _⟩ => ⟨S30720, .i32⟩
  | .hbm, ⟨57, _⟩ => ⟨S30720, .i32⟩
  | .hbm, ⟨58, _⟩ => ⟨S30720x1, .i32⟩
  | .hbm, ⟨59, _⟩ => ⟨S30720x1024, .f32⟩
  | .hbm, ⟨60, _⟩ => ⟨S_, .f32⟩
  | .hbm, ⟨61, _⟩ => ⟨S3072x1024, .f32⟩
  | .hbm, ⟨62, _⟩ => ⟨S30720x1, .i32⟩
  | .hbm, ⟨63, _⟩ => ⟨S3072x1024, .f32⟩
  | .hbm, ⟨64, _⟩ => ⟨S_, .f32⟩
  | .hbm, ⟨65, _⟩ => ⟨S30720, .f32⟩
  | .hbm, ⟨66, _⟩ => ⟨S_, .f32⟩
  | .hbm, ⟨67, _⟩ => ⟨S3072, .f32⟩
  | .hbm, ⟨68, _⟩ => ⟨S30720x1, .i32⟩
  | .hbm, ⟨69, _⟩ => ⟨S3072, .f32⟩
  | .hbm, ⟨70, _⟩ => ⟨S_, .f32⟩
  | .hbm, ⟨71, _⟩ => ⟨S3072, .f32⟩
  | .hbm, ⟨72, _⟩ => ⟨S3072, .f32⟩
  | .hbm, ⟨73, _⟩ => ⟨S3072x1, .f32⟩
  | .hbm, ⟨74, _⟩ => ⟨S3072x1024, .f32⟩
  | .hbm, ⟨75, _⟩ => ⟨S3072x1024, .f32⟩
  | .hbm, ⟨76, _⟩ => ⟨S3072x1024, .f32⟩
  | .hbm, ⟨77, _⟩ => ⟨S3072x1024, .f32⟩
  | .hbm, ⟨78, _⟩ => ⟨S3072x1024, .f32⟩
  | .hbm, ⟨79, _⟩ => ⟨S3072x1024, .f32⟩
  | .hbm, ⟨80, _⟩ => ⟨S1x1024, .f32⟩
  | .hbm, ⟨81, _⟩ => ⟨S3072x1024, .f32⟩
  | .hbm, ⟨82, _⟩ => ⟨S3072x1024, .f32⟩
  | .hbm, ⟨83, _⟩ => ⟨S_, .f32⟩
  | .hbm, ⟨84, _⟩ => ⟨S3072x1024, .f32⟩
  | .hbm, ⟨85, _⟩ => ⟨S3072x1024, .f32⟩
  | .hbm, ⟨86, _⟩ => ⟨S_, .i32⟩
  | .hbm, ⟨87, _⟩ => ⟨S2560, .i32⟩
  | .hbm, ⟨88, _⟩ => ⟨S2560, .i1⟩
  | .hbm, ⟨89, _⟩ => ⟨S_, .i32⟩
  | .hbm, ⟨90, _⟩ => ⟨S2560, .i32⟩
  | .hbm, ⟨91, _⟩ => ⟨S2560, .i32⟩
  | .hbm, ⟨92, _⟩ => ⟨S2560, .i32⟩
  | .hbm, ⟨93, _⟩ => ⟨S2560x1, .i32⟩
  | .hbm, ⟨94, _⟩ => ⟨S2560x1024, .f32⟩
  | .hbm, ⟨95, _⟩ => ⟨S_, .f32⟩
  | .hbm, ⟨96, _⟩ => ⟨S512x1024, .f32⟩
  | .hbm, ⟨97, _⟩ => ⟨S2560x1, .i32⟩
  | .hbm, ⟨98, _⟩ => ⟨S512x1024, .f32⟩
  | .hbm, ⟨99, _⟩ => ⟨S_, .f32⟩
  | .hbm, ⟨100, _⟩ => ⟨S2560, .f32⟩
  | .hbm, ⟨101, _⟩ => ⟨S_, .f32⟩
  | .hbm, ⟨102, _⟩ => ⟨S512, .f32⟩
  | .hbm, ⟨103, _⟩ => ⟨S2560x1, .i32⟩
  | .hbm, ⟨104, _⟩ => ⟨S512, .f32⟩
  | .hbm, ⟨105, _⟩ => ⟨S_, .f32⟩
  | .hbm, ⟨106, _⟩ => ⟨S512, .f32⟩
  | .hbm, ⟨107, _⟩ => ⟨S512, .f32⟩
  | .hbm, ⟨108, _⟩ => ⟨S512x1, .f32⟩
  | .hbm, ⟨109, _⟩ => ⟨S512x1024, .f32⟩
  | .hbm, ⟨110, _⟩ => ⟨S512x1024, .f32⟩
  | .hbm, ⟨111, _⟩ => ⟨S512x1024, .f32⟩
  | .hbm, ⟨112, _⟩ => ⟨S512x47, .f32⟩
  | .hbm, ⟨113, _⟩ => ⟨S512x47, .f32⟩
  | .hbm, ⟨114, _⟩ => ⟨S512x47, .f32⟩
  | .hbm, ⟨115, _⟩ => ⟨S1x47, .f32⟩
  | .hbm, ⟨116, _⟩ => ⟨S512x47, .f32⟩
  | .hbm, ⟨117, _⟩ => ⟨S512x47, .f32⟩
  | _, _ => ⟨S540672x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  bcast_S_S506880 : S_.BroadcastsInDim S506880 (![] : Fin 0 → Fin S506880.rank)
  bcast_S506880_S506880x1_0 : S506880.BroadcastsInDim S506880x1 (![0] : Fin 1 → Fin S506880x1.rank)
  bcast_S_S33792x256 : S_.BroadcastsInDim S33792x256 (![] : Fin 0 → Fin S33792x256.rank)
  bcast_S_S33792 : S_.BroadcastsInDim S33792 (![] : Fin 0 → Fin S33792.rank)
  bcast_S33792_S33792x1_0 : S33792.BroadcastsInDim S33792x1 (![0] : Fin 1 → Fin S33792x1.rank)
  bcast_S33792x1_S33792x256_0_1 : S33792x1.BroadcastsInDim S33792x256 (![0, 1] : Fin 2 → Fin S33792x256.rank)
  slices_S540672x256_S33792x256_0_0 : S540672x256.Slices ![0, 0] S33792x256
  bcast_S1024_S1x1024_1 : S1024.BroadcastsInDim S1x1024 (![1] : Fin 1 → Fin S1x1024.rank)
  bcast_S1x1024_S33792x1024_0_1 : S1x1024.BroadcastsInDim S33792x1024 (![0, 1] : Fin 2 → Fin S33792x1024.rank)
  bcast_S_S33792x1024 : S_.BroadcastsInDim S33792x1024 (![] : Fin 0 → Fin S33792x1024.rank)
  bcast_S_S30720 : S_.BroadcastsInDim S30720 (![] : Fin 0 → Fin S30720.rank)
  bcast_S30720_S30720x1_0 : S30720.BroadcastsInDim S30720x1 (![0] : Fin 1 → Fin S30720x1.rank)
  bcast_S_S3072x1024 : S_.BroadcastsInDim S3072x1024 (![] : Fin 0 → Fin S3072x1024.rank)
  bcast_S_S3072 : S_.BroadcastsInDim S3072 (![] : Fin 0 → Fin S3072.rank)
  bcast_S3072_S3072x1_0 : S3072.BroadcastsInDim S3072x1 (![0] : Fin 1 → Fin S3072x1.rank)
  bcast_S3072x1_S3072x1024_0_1 : S3072x1.BroadcastsInDim S3072x1024 (![0, 1] : Fin 2 → Fin S3072x1024.rank)
  slices_S33792x1024_S3072x1024_0_0 : S33792x1024.Slices ![0, 0] S3072x1024
  bcast_S1x1024_S3072x1024_0_1 : S1x1024.BroadcastsInDim S3072x1024 (![0, 1] : Fin 2 → Fin S3072x1024.rank)
  bcast_S_S2560 : S_.BroadcastsInDim S2560 (![] : Fin 0 → Fin S2560.rank)
  bcast_S2560_S2560x1_0 : S2560.BroadcastsInDim S2560x1 (![0] : Fin 1 → Fin S2560x1.rank)
  bcast_S_S512x1024 : S_.BroadcastsInDim S512x1024 (![] : Fin 0 → Fin S512x1024.rank)
  bcast_S_S512 : S_.BroadcastsInDim S512 (![] : Fin 0 → Fin S512.rank)
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  slices_S3072x1024_S512x1024_0_0 : S3072x1024.Slices ![0, 0] S512x1024
  bcast_S47_S1x47_1 : S47.BroadcastsInDim S1x47 (![1] : Fin 1 → Fin S1x47.rank)
  bcast_S1x47_S512x47_0_1 : S1x47.BroadcastsInDim S512x47 (![0, 1] : Fin 2 → Fin S512x47.rank)
  gather_S540672x256_S506880x1_S506880x256_1_0_n_n_0_1_1256_wf : GatherDims.WF S540672x256 S506880x1 S506880x256 [1] [0] [] [0] [] 1 ![1, 256]
  scatter_S33792x256_S506880x1_S506880x256_1_0_0_1_wf : ScatterDims.WF S33792x256 S506880x1 S506880x256 [1] [0] [0] 1
  scatter_S33792_S506880x1_S506880_n_0_0_1_wf : ScatterDims.WF S33792 S506880x1 S506880 [] [0] [0] 1
  dot_S33792x256_S256x1024_S33792x1024_1_0_0_1_n_n_wf : DotDims.WF S33792x256 S256x1024 S33792x1024 [1] [0] [0] [1] [] []
  gather_S33792x1024_S30720x1_S30720x1024_1_0_n_n_0_1_11024_wf : GatherDims.WF S33792x1024 S30720x1 S30720x1024 [1] [0] [] [0] [] 1 ![1, 1024]
  scatter_S3072x1024_S30720x1_S30720x1024_1_0_0_1_wf : ScatterDims.WF S3072x1024 S30720x1 S30720x1024 [1] [0] [0] 1
  scatter_S3072_S30720x1_S30720_n_0_0_1_wf : ScatterDims.WF S3072 S30720x1 S30720 [] [0] [0] 1
  dot_S3072x1024_S1024x1024_S3072x1024_1_0_0_1_n_n_wf : DotDims.WF S3072x1024 S1024x1024 S3072x1024 [1] [0] [0] [1] [] []
  gather_S3072x1024_S2560x1_S2560x1024_1_0_n_n_0_1_11024_wf : GatherDims.WF S3072x1024 S2560x1 S2560x1024 [1] [0] [] [0] [] 1 ![1, 1024]
  scatter_S512x1024_S2560x1_S2560x1024_1_0_0_1_wf : ScatterDims.WF S512x1024 S2560x1 S2560x1024 [1] [0] [0] 1
  scatter_S512_S2560x1_S2560_n_0_0_1_wf : ScatterDims.WF S512 S2560x1 S2560 [] [0] [0] 1
  dot_S512x1024_S1024x47_S512x47_1_0_0_1_n_n_wf : DotDims.WF S512x1024 S1024x47 S512x47 [1] [0] [0] [1] [] []

variable [Facts₀]

def gather_S540672x256_S506880x1_S506880x256_1_0_n_n_0_1_1256 : GatherDims S540672x256 S506880x1 S506880x256 where
  offsetDims := [1]
  collapsedSliceDims := [0]
  operandBatchingDims := []
  startIndicesBatchingDims := []
  startIndexMap := [0]
  indexVectorDim := 1
  sliceSizes := ![1, 256]
  wf := gather_S540672x256_S506880x1_S506880x256_1_0_n_n_0_1_1256_wf
def scatter_S33792x256_S506880x1_S506880x256_1_0_0_1 : ScatterDims S33792x256 S506880x1 S506880x256 where
  updateWindowDims := [1]
  insertedWindowDims := [0]
  scatterDimsToOperandDims := [0]
  indexVectorDim := 1
  wf := scatter_S33792x256_S506880x1_S506880x256_1_0_0_1_wf
def scatter_S33792_S506880x1_S506880_n_0_0_1 : ScatterDims S33792 S506880x1 S506880 where
  updateWindowDims := []
  insertedWindowDims := [0]
  scatterDimsToOperandDims := [0]
  indexVectorDim := 1
  wf := scatter_S33792_S506880x1_S506880_n_0_0_1_wf
def dot_S33792x256_S256x1024_S33792x1024_1_0_0_1_n_n : DotDims S33792x256 S256x1024 S33792x1024 where
  lhsContracting := [1]
  rhsContracting := [0]
  lhsNonContracting := [0]
  rhsNonContracting := [1]
  lhsBatch := []
  rhsBatch := []
  wf := dot_S33792x256_S256x1024_S33792x1024_1_0_0_1_n_n_wf
def gather_S33792x1024_S30720x1_S30720x1024_1_0_n_n_0_1_11024 : GatherDims S33792x1024 S30720x1 S30720x1024 where
  offsetDims := [1]
  collapsedSliceDims := [0]
  operandBatchingDims := []
  startIndicesBatchingDims := []
  startIndexMap := [0]
  indexVectorDim := 1
  sliceSizes := ![1, 1024]
  wf := gather_S33792x1024_S30720x1_S30720x1024_1_0_n_n_0_1_11024_wf
def scatter_S3072x1024_S30720x1_S30720x1024_1_0_0_1 : ScatterDims S3072x1024 S30720x1 S30720x1024 where
  updateWindowDims := [1]
  insertedWindowDims := [0]
  scatterDimsToOperandDims := [0]
  indexVectorDim := 1
  wf := scatter_S3072x1024_S30720x1_S30720x1024_1_0_0_1_wf
def scatter_S3072_S30720x1_S30720_n_0_0_1 : ScatterDims S3072 S30720x1 S30720 where
  updateWindowDims := []
  insertedWindowDims := [0]
  scatterDimsToOperandDims := [0]
  indexVectorDim := 1
  wf := scatter_S3072_S30720x1_S30720_n_0_0_1_wf
def dot_S3072x1024_S1024x1024_S3072x1024_1_0_0_1_n_n : DotDims S3072x1024 S1024x1024 S3072x1024 where
  lhsContracting := [1]
  rhsContracting := [0]
  lhsNonContracting := [0]
  rhsNonContracting := [1]
  lhsBatch := []
  rhsBatch := []
  wf := dot_S3072x1024_S1024x1024_S3072x1024_1_0_0_1_n_n_wf
def gather_S3072x1024_S2560x1_S2560x1024_1_0_n_n_0_1_11024 : GatherDims S3072x1024 S2560x1 S2560x1024 where
  offsetDims := [1]
  collapsedSliceDims := [0]
  operandBatchingDims := []
  startIndicesBatchingDims := []
  startIndexMap := [0]
  indexVectorDim := 1
  sliceSizes := ![1, 1024]
  wf := gather_S3072x1024_S2560x1_S2560x1024_1_0_n_n_0_1_11024_wf
def scatter_S512x1024_S2560x1_S2560x1024_1_0_0_1 : ScatterDims S512x1024 S2560x1 S2560x1024 where
  updateWindowDims := [1]
  insertedWindowDims := [0]
  scatterDimsToOperandDims := [0]
  indexVectorDim := 1
  wf := scatter_S512x1024_S2560x1_S2560x1024_1_0_0_1_wf
def scatter_S512_S2560x1_S2560_n_0_0_1 : ScatterDims S512 S2560x1 S2560 where
  updateWindowDims := []
  insertedWindowDims := [0]
  scatterDimsToOperandDims := [0]
  indexVectorDim := 1
  wf := scatter_S512_S2560x1_S2560_n_0_0_1_wf
def dot_S512x1024_S1024x47_S512x47_1_0_0_1_n_n : DotDims S512x1024 S1024x47 S512x47 where
  lhsContracting := [1]
  rhsContracting := [0]
  lhsNonContracting := [0]
  rhsNonContracting := [1]
  lhsBatch := []
  rhsBatch := []
  wf := dot_S512x1024_S1024x47_S512x47_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.LibConcatDense.lean ====
/-
  A dense layer whose operand is two arrays set side by side and whose weights are two matrices stacked: for a row r,
      [a | m] · [Ws ; Wn] + b  =  (a · Ws + m · Wn) + b ,
  because a sum over the 2K contracted coordinates is the sum over the first K plus the sum over the last K (addition
  on the extended reals is commutative and associative; no finiteness is used). Stated for any number of rows and any
  widths: two arrays of R × K side by side read, at column c, the left one at c when c < K and the right one at c - K
  otherwise; two arrays of K × N stacked read the same way along the rows. With it, the layer as a kernel computes it
  on whole arrays (one product over the joined coordinate, bias given as a one-row matrix, optionally the rectifier)
  is the layer as a host program spells it (two dot_generals added, bias broadcast in two steps, optionally the
  rectifier as a maximum with the broadcast zero word).
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«162153_j82291573392195_1_alg».proof.Proof.LibDenseRows

noncomputable section

namespace Cert.LibConcatDense

open Idealize.ShloMosaic Idealize.ShloMosaic.ValueIdx
open Cert.LibDenseRows (Sh2 Sh1 Sh0 zeroW)

variable {α : Type} {R K K2 N : ℕ}

/-! ## Two arrays side by side, and two stacked, read at an index -/

/-- Side by side along the columns, at a column below K: the left array. -/
theorem cols_left (A B : (Sh2 R K).Idx → α) (h : Shape.Concatenates [Sh2 R K, Sh2 R K] (Sh2 R K2) 1)
    (r : Fin R) (c : Fin K2) (k : Fin K) (hc : c.val = k.val) :
    concatenate (Sh2 R K2) 1 [⟨Sh2 R K, A⟩, ⟨Sh2 R K, B⟩] h (ix2 r c) = A (ix2 r k) := by
  refine concatenate_pair_apply_left (1 : Fin 2) A B h (ix2 r c) rfl (ix2 r k) fun b => ?_
  match b with
  | ⟨0, _⟩ => rfl
  | ⟨1, _⟩ => exact hc.symm

/-- Side by side along the columns, at column K + k: the right array at k. -/
theorem cols_right (A B : (Sh2 R K).Idx → α) (h : Shape.Concatenates [Sh2 R K, Sh2 R K] (Sh2 R K2) 1)
    (r : Fin R) (c : Fin K2) (k : Fin K) (hc : c.val = K + k.val) :
    concatenate (Sh2 R K2) 1 [⟨Sh2 R K, A⟩, ⟨Sh2 R K, B⟩] h (ix2 r c) = B (ix2 r k) := by
  refine concatenate_pair_apply_right (1 : Fin 2) A B h (ix2 r c) rfl rfl (ix2 r k) (fun b hb => ?_) ?_
  · match b with
    | ⟨0, _⟩ => rfl
    | ⟨1, _⟩ => exact absurd rfl hb
  · show k.val + K = c.val
    omega

/-- Stacked along the rows, at a row below K: the upper array. -/
theorem rows_upper (A B : (Sh2 K N).Idx → α) (h : Shape.Concatenates [Sh2 K N, Sh2 K N] (Sh2 K2 N) 0)
    (c : Fin K2) (k : Fin K) (n : Fin N) (hc : c.val = k.val) :
    concatenate (Sh2 K2 N) 0 [⟨Sh2 K N, A⟩, ⟨Sh2 K N, B⟩] h (ix2 c n) = A (ix2 k n) := by
  refine concatenate_pair_apply_left (0 : Fin 2) A B h (ix2 c n) rfl (ix2 k n) fun b => ?_
  match b with
  | ⟨0, _⟩ => exact hc.symm
  | ⟨1, _⟩ => rfl

/-- Stacked along the rows, at row K + k: the lower array at k. -/
theorem rows_lower (A B : (Sh2 K N).Idx → α) (h : Shape.Concatenates [Sh2 K N, Sh2 K N] (Sh2 K2 N) 0)
    (c : Fin K2) (k : Fin K) (n : Fin N) (hc : c.val = K + k.val) :
    concatenate (Sh2 K2 N) 0 [⟨Sh2 K N, A⟩, ⟨Sh2 K N, B⟩] h (ix2 c n) = B (ix2 k n) := by
  refine concatenate_pair_apply_right (0 : Fin 2) A B h (ix2 c n) rfl rfl (ix2 k n) (fun b hb => ?_) ?_
  · match b with
    | ⟨0, _⟩ => exact absurd rfl hb
    | ⟨1, _⟩ => rfl
  · show k.val + K = c.val
    omega

/-! ## The contracted sum splits -/

/-- A sum over the 2K joined coordinates of products of the joined arrays is the two sums over K. -/
theorem sum_joined (hK : K2 = K + K) (A B : (Sh2 R K).Idx → EReal) (Ws Wn : (Sh2 K N).Idx → EReal)
    (hc : Shape.Concatenates [Sh2 R K, Sh2 R K] (Sh2 R K2) 1) (hr : Shape.Concatenates [Sh2 K N, Sh2 K N] (Sh2 K2 N) 0)
    (r : Fin R) (n : Fin N) :
    (∑ c : Fin K2, concatenate (Sh2 R K2) 1 [⟨Sh2 R K, A⟩, ⟨Sh2 R K, B⟩] hc (ix2 r c)
        * concatenate (Sh2 K2 N) 0 [⟨Sh2 K N, Ws⟩, ⟨Sh2 K N, Wn⟩] hr (ix2 c n))
      = (∑ k : Fin K, A (ix2 r k) * Ws (ix2 k n)) + ∑ k : Fin K, B (ix2 r k) * Wn (ix2 k n) := by
  subst hK
  rw [Fin.sum_univ_add]
  congr 1
  · refine Finset.sum_congr rfl fun k _ => ?_
    rw [cols_left A B hc r (Fin.castAdd K k) k rfl, rows_upper Ws Wn hr (Fin.castAdd K k) k n rfl]
  · refine Finset.sum_congr rfl fun k _ => ?_
    rw [cols_right A B hc r (Fin.natAdd K k) k rfl, rows_lower Ws Wn hr (Fin.natAdd K k) k n rfl]

/-! ## The layer on whole arrays, as a kernel leaves it -/

/-- X · W + b on all rows, the bias a one-row matrix: entry (r, n) is the sum over the contracted coordinate plus b at n. -/
def denseArr {K' : ℕ} (X : (Sh2 R K').Idx → EReal) (W : (Sh2 K' N).Idx → EReal) (b : (Sh2 1 N).Idx → EReal) :
    (Sh2 R N).Idx → EReal :=
  fun i => (∑ k : Fin K', X (ix2 (i 0) k) * W (ix2 k (i 1))) + b (ix2 (0 : Fin 1) (i 1))

/-- The rectifier on every entry. -/
def reluArr (Z : (Sh2 R N).Idx → EReal) : (Sh2 R N).Idx → EReal := fun i => max (Z i) zeroW

theorem denseArr_apply {K' : ℕ} (X : (Sh2 R K').Idx → EReal) (W : (Sh2 K' N).Idx → EReal) (b : (Sh2 1 N).Idx → EReal)
    (r : Fin R) (n : Fin N) :
    denseArr X W b (ix2 r n) = (∑ k : Fin K', X (ix2 r k) * W (ix2 k n)) + b (ix2 (0 : Fin 1) n) := rfl

theorem reluArr_apply (Z : (Sh2 R N).Idx → EReal) (i : (Sh2 R N).Idx) : reluArr Z i = max (Z i) zeroW := rfl

/-- A kernel's body on a block of rows — the block product into a zero accumulator plus the one-row bias broadcast down
    the rows (the casts of an array to its own shape are the identity) — is the layer on that block. -/
theorem body_dense {φ₁ φ₂ : FTy} {K' : ℕ} (x0 : FVec Ideal (Sh2 R K') φ₁) (x1 : FVec Ideal (Sh2 K' N) φ₂) (x2 : FVec Ideal (Sh2 1 N) .f32)
    (h0 : (Sh2 R K').ShapeCasts (Sh2 R K')) (h1 : (Sh2 K' N).ShapeCasts (Sh2 K' N)) (h2 : (Sh2 1 N).ShapeCasts (Sh2 1 N))
    (hb : (Sh2 1 N).Broadcasts (Sh2 R N)) :
    addf (matmul (DotDims.plain R K' N) none (shapeCast (Sh2 R K') x0 h0) (shapeCast (Sh2 K' N) x1 h1)
        (constant (Sh2 R N) .f32 0x00000000#32))
      (broadcastTo (Sh2 R N) (shapeCast (Sh2 1 N) x2 h2) hb)
    = denseArr x0 x1 x2 := by
  funext i
  obtain ⟨r, n, rfl⟩ : ∃ (r : Fin R) (n : Fin N), i = ix2 r n := ⟨i 0, i 1, eq_ix2 i⟩
  simp only [shapeCast_self]
  rw [addf_apply, LibDenseRows.matmul_plain_zero_apply, broadcastTo_1b_ab_apply, denseArr_apply]

/-- The same with the rectifier spelled as a maximum with a splat of the zero word. -/
theorem body_dense_relu {φ₁ φ₂ : FTy} {K' : ℕ} (x0 : FVec Ideal (Sh2 R K') φ₁) (x1 : FVec Ideal (Sh2 K' N) φ₂) (x2 : FVec Ideal (Sh2 1 N) .f32)
    (h0 : (Sh2 R K').ShapeCasts (Sh2 R K')) (h1 : (Sh2 K' N).ShapeCasts (Sh2 K' N)) (h2 : (Sh2 1 N).ShapeCasts (Sh2 1 N))
    (hb : (Sh2 1 N).Broadcasts (Sh2 R N)) :
    maximumf (addf (matmul (DotDims.plain R K' N) none (shapeCast (Sh2 R K') x0 h0) (shapeCast (Sh2 K' N) x1 h1)
          (constant (Sh2 R N) .f32 0x00000000#32))
        (broadcastTo (Sh2 R N) (shapeCast (Sh2 1 N) x2 h2) hb))
      (broadcast (Sh2 R N) (Scalar.ofBits .f32 0x00000000#32))
    = reluArr (denseArr x0 x1 x2) := by
  rw [body_dense]
  rfl

/-! ## The layer as a host program spells it, and the two joined -/

/-- The host's layer: two dot_generals added, then the bias broadcast to a one-row matrix and over the rows. -/
def hostLayer (A B : FVec Ideal (Sh2 R K) .f32) (Ws Wn : FVec Ideal (Sh2 K N) .f32) (b : FVec Ideal (Sh1 N) .f32)
    (hb1 : (Sh1 N).BroadcastsInDim (Sh2 1 N) ![1]) (hb2 : (Sh2 1 N).BroadcastsInDim (Sh2 R N) ![0, 1]) : FVec Ideal (Sh2 R N) .f32 :=
  addf (addf (Host.dotGeneral (DotDims.plain R K N) none A Ws) (Host.dotGeneral (DotDims.plain R K N) none B Wn))
    (broadcastInDim (Sh2 R N) ![0, 1] hb2 (broadcastInDim (Sh2 1 N) ![1] hb1 b))

/-- The kernel's layer over the joined operands (both changed to a narrower float format, which changes no entry; the
    bias reshaped to one row) is the host's layer. -/
theorem joined_eq_host (hK : K2 = K + K) (A B : FVec Ideal (Sh2 R K) .f32) (Ws Wn : FVec Ideal (Sh2 K N) .f32)
    (b : FVec Ideal (Sh1 N) .f32)
    (hc : Shape.Concatenates [Sh2 R K, Sh2 R K] (Sh2 R K2) 1) (hr : Shape.Concatenates [Sh2 K N, Sh2 K N] (Sh2 K2 N) 0)
    (hlt : FTy.bf16.bits < FTy.f32.bits) (hsb : (Sh1 N).ShapeCasts (Sh2 1 N))
    (hb1 : (Sh1 N).BroadcastsInDim (Sh2 1 N) ![1]) (hb2 : (Sh2 1 N).BroadcastsInDim (Sh2 R N) ![0, 1]) :
    denseArr (truncf .bf16 (concatenate (Sh2 R K2) 1 [⟨Sh2 R K, A⟩, ⟨Sh2 R K, B⟩] hc : FVec Ideal (Sh2 R K2) .f32) hlt)
        (truncf .bf16 (concatenate (Sh2 K2 N) 0 [⟨Sh2 K N, Ws⟩, ⟨Sh2 K N, Wn⟩] hr : FVec Ideal (Sh2 K2 N) .f32) hlt)
        (shapeCast (Sh2 1 N) b hsb)
      = hostLayer A B Ws Wn b hb1 hb2 := by
  funext i
  obtain ⟨r, n, rfl⟩ : ∃ (r : Fin R) (n : Fin N), i = ix2 r n := ⟨i 0, i 1, eq_ix2 i⟩
  unfold hostLayer
  rw [denseArr_apply, addf_apply, addf_apply, StackMember.dotGeneral_plain_apply, StackMember.dotGeneral_plain_apply,
    LibDenseRows.biasRows_apply, shapeCast_a_1a_apply]
  simp only [truncf_apply]
  rw [sum_joined hK A B Ws Wn hc hr r n]

/-- The rectifier in the host's spelling is the rectifier on every entry. -/
theorem relu_host (Z : FVec Ideal (Sh2 R N) .f32) (hb : Sh0.BroadcastsInDim (Sh2 R N) ![]) :
    maximumf Z (broadcastInDim (Sh2 R N) ![] hb (constant (F := Ideal) Sh0 .f32 0x00000000#32)) = reluArr Z := by
  funext i
  rw [reluArr_apply, maximumf_apply, broadcastInDim_apply ![] hb _ i ix0 (fun a => a.elim0)]
  rfl

end Cert.LibConcatDense
-- ==== Proof.Region0.lean ====
/-
  One region of the program computes one dense layer on the rows of an array: for every row r of the 33792 × 512
  operand X, every column n of the 512 × 1024 weights W and the one-row bias b,
      out (r, n) = max (Σ_k X (r, k) · W (k, n) + b (0, n)) 0 .
  The grid walks the rows in 33 blocks of 1024: point t reads rows 1024·t … 1024·t + 1023 of X, all of W and all of b, and
  writes the same rows of the output. A row of the output depends only on the same row of X, so what point t writes
  back is its block of ONE whole-array function of the three arrays, and since the row blocks tile the output, the
  array ends holding that function. Stated for any contents V of the buffers when the region is entered.
-/
import proofs.«162153_j82291573392195_1_alg».proof.Proof.Gen.KernelIdeal.Frame
import proofs.«162153_j82291573392195_1_alg».proof.Proof.LibConcatDense
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen
open Cert.LibConcatDense (denseArr reluArr denseArr_apply reluArr_apply)

variable (V : (c : Dev nD) → (b : Ref sig .tc) → Buf (Elt Ideal) ((c : Thread nD τ).loc b))

/-- The operand, the weights and the bias row as the region finds them. -/
abbrev xarr (c : Dev nD) : S33792x512.Idx → EReal := V c main_v22
abbrev warr (c : Dev nD) : S512x1024.Idx → EReal := V c main_v23
abbrev barr (c : Dev nD) : S1x1024.Idx → EReal := V c main_v24

/-- What the output array holds after the region: the layer on all rows. -/
abbrev result (c : Dev nD) : S33792x1024.Idx → EReal := reluArr (denseArr (xarr V c) (warr V c) (barr V c))

theorem hz : (![0, 0] : Fin 2 → Nat) = fun _ => 0 := funext fun a => by fin_cases a <;> rfl

/-- The body's stored value is the layer on the loaded blocks. -/
theorem pay_eq (x0 : S1024x512.Idx → EReal) (x1 : S512x1024.Idx → EReal) (x2 : S1x1024.Idx → EReal) :
    (k0_pay1 (F := Ideal) x0 x1 x2 : S1024x1024.Idx → EReal) = reluArr (denseArr x0 x1 x2) := by
  unfold k0_pay1
  exact Cert.LibConcatDense.body_dense_relu x0 x1 x2 _ _ _ _

/-- The printed index maps over the grid: the operand's and the output's block index is (t, 0), the weights' and the
    bias's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The operand's block at point t is rows 1024·t … of the operand. -/
theorem xblk_apply (c : Dev nD) (t : Fin cfg0.N) (p : Fin 1024) (k : Fin 512) (r : Fin 33792) (hr : r.val = t.val * 1024 + p.val) :
    (iblk0 V c 0 t : S1024x512.Idx → EReal) (ix2 p k) = xarr V c (ix2 r k) := by
  obtain ⟨e0, e1, -⟩ := idx_facts t
  unfold iblk0
  rw [View.read_apply]
  show V c main_v22 _ = V c main_v22 _
  congr 1
  funext a
  apply Fin.ext
  match a with
  | ⟨0, _⟩ => show win0_0.index t 0 * 1024 + 1 * p.val = r.val; omega
  | ⟨1, _⟩ => show win0_0.index t 1 * 512 + 1 * k.val = k.val; omega

/-- The weights' block at every point is the whole array. -/
theorem wblk_eq (c : Dev nD) (t : Fin cfg0.N) : (iblk0 V c 1 t : S512x1024.Idx → EReal) = warr V c := by
  obtain ⟨-, -, e2, e3, -⟩ := idx_facts t
  funext y
  unfold iblk0
  rw [View.read_apply]
  show V c main_v23 _ = V c main_v23 _
  congr 1
  funext a
  apply Fin.ext
  match a with
  | ⟨0, _⟩ => show win0_1.index t 0 * 512 + 1 * (y 0).val = (y 0).val; omega
  | ⟨1, _⟩ => show win0_1.index t 1 * 1024 + 1 * (y 1).val = (y 1).val; omega

/-- The bias row's block at every point is the whole row. -/
theorem bblk_eq (c : Dev nD) (t : Fin cfg0.N) : (iblk0 V c 2 t : S1x1024.Idx → EReal) = barr V c := by
  obtain ⟨-, -, -, -, e4, e5, -⟩ := idx_facts t
  funext y
  unfold iblk0
  rw [View.read_apply]
  show V c main_v24 _ = V c main_v24 _
  congr 1
  funext a
  apply Fin.ext
  match a with
  | ⟨0, _⟩ => show win0_2.index t 0 * 1 + 1 * (y 0).val = (y 0).val; omega
  | ⟨1, _⟩ => show win0_2.index t 1 * 1024 + 1 * (y 1).val = (y 1).val; omega

/-- Where entry (p, q) of the output's block at point t lies in the output array: row 1024·t + p, column q. -/
theorem oemb (t : Fin cfg0.N) (p : Fin 1024) (q : Fin 1024) (r : Fin 33792) (hr : r.val = t.val * 1024 + p.val) :
    (((cfg0.win 3).blk t).view.emb (ix2 p q : S1024x1024.Idx) : S33792x1024.Idx) = ix2 r q := by
  obtain ⟨-, -, -, -, -, -, e6, e7⟩ := idx_facts t
  funext a
  apply Fin.ext
  match a with
  | ⟨0, _⟩ => show win0_3.index t 0 * 1024 + 1 * p.val = r.val; omega
  | ⟨1, _⟩ => show win0_3.index t 1 * 1024 + 1 * q.val = q.val; omega

/-- Entry by entry, the layer on point t's blocks is the layer on the whole arrays at the entry's place in the array. -/
theorem block_entry (c : Dev nD) (t : Fin cfg0.N) (j : S1024x1024.Idx) :
    (reluArr (denseArr (iblk0 V c 0 t : S1024x512.Idx → EReal) (iblk0 V c 1 t : S512x1024.Idx → EReal) (iblk0 V c 2 t : S1x1024.Idx → EReal))) j
      = result V c (((cfg0.win 3).blk t).view.emb j) := by
  obtain ⟨p, q, rfl⟩ : ∃ (p : Fin 1024) (q : Fin 1024), j = ix2 p q := ⟨j 0, j 1, eq_ix2 j⟩
  have ht : t.val < 33 := by have h1 := t.isLt; have h2 : cfg0.N = 33 := N_0; omega
  have hr : t.val * 1024 + p.val < 33792 := by have := p.isLt; omega
  rw [oemb t p q ⟨t.val * 1024 + p.val, hr⟩ rfl, wblk_eq, bblk_eq]
  show (reluArr (denseArr (iblk0 V c 0 t : S1024x512.Idx → EReal) (warr V c) (barr V c))) (ix2 p q)
    = (reluArr (denseArr (xarr V c) (warr V c) (barr V c))) (ix2 ⟨t.val * 1024 + p.val, hr⟩ q)
  simp only [reluArr_apply, denseArr_apply, xblk_apply V c t p _ ⟨t.val * 1024 + p.val, hr⟩ rfl]

/-- What point t writes back is block t of the layer on the whole arrays. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S1024x512) hz, View.ld_unit_zero (S := S512x1024) hz, View.ld_unit_zero (S := S1x1024) hz]
  rw [pay_eq]
  funext j
  exact block_entry V c t j

/-- The output array after the region is the layer on all rows: row r lies in the block of point r / 1024. -/
theorem final (c : Dev nD) : (dat0 V c).arrAt 3 cfg0.N = result V c :=
  (dat0 V c).arrAt_eq_of_cover 3 (result V c) (fun t _ => flushed_eq V c t) fun i => by
    have hi0 : (i 0 : Nat) < 33792 := (i 0).isLt
    have hi1 : (i 1 : Nat) < 1024 := (i 1).isLt
    have hN : cfg0.N = 33 := N_0
    have hlt : (i 0 : Nat) / 1024 < cfg0.N := by rw [hN]; omega
    obtain ⟨t, ht⟩ : ∃ t : Fin cfg0.N, t.val = (i 0 : Nat) / 1024 := ⟨⟨_, hlt⟩, rfl⟩
    obtain ⟨-, -, -, -, -, -, e6, e7⟩ := idx_facts t
    refine ⟨t, flush0_3 t, ?_⟩
    show i ∈ ((View.whole main_v25).slice (win0_3.rect t)).set
    rw [View.set_slice_whole, Rect.mem_set_unit]
    intro a
    match a with
    | ⟨0, _⟩ =>
      show win0_3.index _ 0 * 1024 ≤ (i 0 : Nat) ∧ (i 0 : Nat) < win0_3.index _ 0 * 1024 + 1024
      rw [e6, ht]; omega
    | ⟨1, _⟩ =>
      show win0_3.index _ 1 * 1024 ≤ (i 1 : Nat) ∧ (i 1 : Nat) < win0_3.index _ 1 * 1024 + 1024
      rw [e7]; omega

end Cert.KernelIdeal.Region0
-- ==== Proof.Region1.lean ====
/-
  One region of the program computes one dense layer on the rows of an array: for every row r of the 3072 × 2048
  operand X, every column n of the 2048 × 1024 weights W and the one-row bias b,
      out (r, n) = max (Σ_k X (r, k) · W (k, n) + b (0, n)) 0 .
  The grid walks the rows in 3 blocks of 1024: point t reads rows 1024·t … 1024·t + 1023 of X, all of W and all of b, and
  writes the same rows of the output. A row of the output depends only on the same row of X, so what point t writes
  back is its block of ONE whole-array function of the three arrays, and since the row blocks tile the output, the
  array ends holding that function. Stated for any contents V of the buffers when the region is entered.
-/
import proofs.«162153_j82291573392195_1_alg».proof.Proof.Gen.KernelIdeal.Frame
import proofs.«162153_j82291573392195_1_alg».proof.Proof.LibConcatDense
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen
open Cert.LibConcatDense (denseArr reluArr denseArr_apply reluArr_apply)

variable (V : (c : Dev nD) → (b : Ref sig .tc) → Buf (Elt Ideal) ((c : Thread nD τ).loc b))

/-- The operand, the weights and the bias row as the region finds them. -/
abbrev xarr (c : Dev nD) : S3072x2048.Idx → EReal := V c main_v48
abbrev warr (c : Dev nD) : S2048x1024.Idx → EReal := V c main_v49
abbrev barr (c : Dev nD) : S1x1024.Idx → EReal := V c main_v50

/-- What the output array holds after the region: the layer on all rows. -/
abbrev result (c : Dev nD) : S3072x1024.Idx → EReal := reluArr (denseArr (xarr V c) (warr V c) (barr V c))

theorem hz : (![0, 0] : Fin 2 → Nat) = fun _ => 0 := funext fun a => by fin_cases a <;> rfl

/-- The body's stored value is the layer on the loaded blocks. -/
theorem pay_eq (x0 : S1024x2048.Idx → EReal) (x1 : S2048x1024.Idx → EReal) (x2 : S1x1024.Idx → EReal) :
    (k1_pay1 (F := Ideal) x0 x1 x2 : S1024x1024.Idx → EReal) = reluArr (denseArr x0 x1 x2) := by
  unfold k1_pay1
  exact Cert.LibConcatDense.body_dense_relu x0 x1 x2 _ _ _ _

/-- The printed index maps over the grid: the operand's and the output's block index is (t, 0), the weights' and the
    bias's (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The operand's block at point t is rows 1024·t … of the operand. -/
theorem xblk_apply (c : Dev nD) (t : Fin cfg1.N) (p : Fin 1024) (k : Fin 2048) (r : Fin 3072) (hr : r.val = t.val * 1024 + p.val) :
    (iblk1 V c 0 t : S1024x2048.Idx → EReal) (ix2 p k) = xarr V c (ix2 r k) := by
  obtain ⟨e0, e1, -⟩ := idx_facts t
  unfold iblk1
  rw [View.read_apply]
  show V c main_v48 _ = V c main_v48 _
  congr 1
  funext a
  apply Fin.ext
  match a with
  | ⟨0, _⟩ => show win1_0.index t 0 * 1024 + 1 * p.val = r.val; omega
  | ⟨1, _⟩ => show win1_0.index t 1 * 2048 + 1 * k.val = k.val; omega

/-- The weights' block at every point is the whole array. -/
theorem wblk_eq (c : Dev nD) (t : Fin cfg1.N) : (iblk1 V c 1 t : S2048x1024.Idx → EReal) = warr V c := by
  obtain ⟨-, -, e2, e3, -⟩ := idx_facts t
  funext y
  unfold iblk1
  rw [View.read_apply]
  show V c main_v49 _ = V c main_v49 _
  congr 1
  funext a
  apply Fin.ext
  match a with
  | ⟨0, _⟩ => show win1_1.index t 0 * 2048 + 1 * (y 0).val = (y 0).val; omega
  | ⟨1, _⟩ => show win1_1.index t 1 * 1024 + 1 * (y 1).val = (y 1).val; omega

/-- The bias row's block at every point is the whole row. -/
theorem bblk_eq (c : Dev nD) (t : Fin cfg1.N) : (iblk1 V c 2 t : S1x1024.Idx → EReal) = barr V c := by
  obtain ⟨-, -, -, -, e4, e5, -⟩ := idx_facts t
  funext y
  unfold iblk1
  rw [View.read_apply]
  show V c main_v50 _ = V c main_v50 _
  congr 1
  funext a
  apply Fin.ext
  match a with
  | ⟨0, _⟩ => show win1_2.index t 0 * 1 + 1 * (y 0).val = (y 0).val; omega
  | ⟨1, _⟩ => show win1_2.index t 1 * 1024 + 1 * (y 1).val = (y 1).val; omega

/-- Where entry (p, q) of the output's block at point t lies in the output array: row 1024·t + p, column q. -/
theorem oemb (t : Fin cfg1.N) (p : Fin 1024) (q : Fin 1024) (r : Fin 3072) (hr : r.val = t.val * 1024 + p.val) :
    (((cfg1.win 3).blk t).view.emb (ix2 p q : S1024x1024.Idx) : S3072x1024.Idx) = ix2 r q := by
  obtain ⟨-, -, -, -, -, -, e6, e7⟩ := idx_facts t
  funext a
  apply Fin.ext
  match a with
  | ⟨0, _⟩ => show win1_3.index t 0 * 1024 + 1 * p.val = r.val; omega
  | ⟨1, _⟩ => show win1_3.index t 1 * 1024 + 1 * q.val = q.val; omega

/-- Entry by entry, the layer on point t's blocks is the layer on the whole arrays at the entry's place in the array. -/
theorem block_entry (c : Dev nD) (t : Fin cfg1.N) (j : S1024x1024.Idx) :
    (reluArr (denseArr (iblk1 V c 0 t : S1024x2048.Idx → EReal) (iblk1 V c 1 t : S2048x1024.Idx → EReal) (iblk1 V c 2 t : S1x1024.Idx → EReal))) j
      = result V c (((cfg1.win 3).blk t).view.emb j) := by
  obtain ⟨p, q, rfl⟩ : ∃ (p : Fin 1024) (q : Fin 1024), j = ix2 p q := ⟨j 0, j 1, eq_ix2 j⟩
  have ht : t.val < 3 := by have h1 := t.isLt; have h2 : cfg1.N = 3 := N_1; omega
  have hr : t.val * 1024 + p.val < 3072 := by have := p.isLt; omega
  rw [oemb t p q ⟨t.val * 1024 + p.val, hr⟩ rfl, wblk_eq, bblk_eq]
  show (reluArr (denseArr (iblk1 V c 0 t : S1024x2048.Idx → EReal) (warr V c) (barr V c))) (ix2 p q)
    = (reluArr (denseArr (xarr V c) (warr V c) (barr V c))) (ix2 ⟨t.val * 1024 + p.val, hr⟩ q)
  simp only [reluArr_apply, denseArr_apply, xblk_apply V c t p _ ⟨t.val * 1024 + p.val, hr⟩ rfl]

/-- What point t writes back is block t of the layer on the whole arrays. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S1024x2048) hz, View.ld_unit_zero (S := S2048x1024) hz, View.ld_unit_zero (S := S1x1024) hz]
  rw [pay_eq]
  funext j
  exact block_entry V c t j

/-- The output array after the region is the layer on all rows: row r lies in the block of point r / 1024. -/
theorem final (c : Dev nD) : (dat1 V c).arrAt 3 cfg1.N = result V c :=
  (dat1 V c).arrAt_eq_of_cover 3 (result V c) (fun t _ => flushed_eq V c t) fun i => by
    have hi0 : (i 0 : Nat) < 3072 := (i 0).isLt
    have hi1 : (i 1 : Nat) < 1024 := (i 1).isLt
    have hN : cfg1.N = 3 := N_1
    have hlt : (i 0 : Nat) / 1024 < cfg1.N := by rw [hN]; omega
    obtain ⟨t, ht⟩ : ∃ t : Fin cfg1.N, t.val = (i 0 : Nat) / 1024 := ⟨⟨_, hlt⟩, rfl⟩
    obtain ⟨-, -, -, -, -, -, e6, e7⟩ := idx_facts t
    refine ⟨t, flush1_3 t, ?_⟩
    show i ∈ ((View.whole main_v51).slice (win1_3.rect t)).set
    rw [View.set_slice_whole, Rect.mem_set_unit]
    intro a
    match a with
    | ⟨0, _⟩ =>
      show win1_3.index _ 0 * 1024 ≤ (i 0 : Nat) ∧ (i 0 : Nat) < win1_3.index _ 0 * 1024 + 1024
      rw [e6, ht]; omega
    | ⟨1, _⟩ =>
      show win1_3.index _ 1 * 1024 ≤ (i 1 : Nat) ∧ (i 1 : Nat) < win1_3.index _ 1 * 1024 + 1024
      rw [e7]; omega

end Cert.KernelIdeal.Region1
-- ==== Proof.Region2.lean ====
/-
  The last region of the program computes one dense layer, with no rectifier, on the rows of an array: for every row r of the 512 × 2048
  operand X, every column n of the 2048 × 47 weights W and the one-row bias b,
      out (r, n) = Σ_k X (r, k) · W (k, n) + b (0, n) .
  The grid walks the rows in 1 block of 512: point t reads rows 512·t … 512·t + 511 of X, all of W and all of b, and
  writes the same rows of the output. A row of the output depends only on the same row of X, so what point t writes
  back is its block of ONE whole-array function of the three arrays, and since the row blocks tile the output, the
  array ends holding that function. Stated for any contents V of the buffers when the region is entered.
-/
import proofs.«162153_j82291573392195_1_alg».proof.Proof.Gen.KernelIdeal.Frame
import proofs.«162153_j82291573392195_1_alg».proof.Proof.LibConcatDense
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region2

open Cert.KernelIdeal Cert.KernelIdeal.Gen
open Cert.LibConcatDense (denseArr reluArr denseArr_apply reluArr_apply)

variable (V : (c : Dev nD) → (b : Ref sig .tc) → Buf (Elt Ideal) ((c : Thread nD τ).loc b))

/-- The operand, the weights and the bias row as the region finds them. -/
abbrev xarr (c : Dev nD) : S512x2048.Idx → EReal := V c main_v74
abbrev warr (c : Dev nD) : S2048x47.Idx → EReal := V c main_v75
abbrev barr (c : Dev nD) : S1x47.Idx → EReal := V c main_v76

/-- What the output array holds after the region: the layer on all rows. -/
abbrev result (c : Dev nD) : S512x47.Idx → EReal := denseArr (xarr V c) (warr V c) (barr V c)

theorem hz : (![0, 0] : Fin 2 → Nat) = fun _ => 0 := funext fun a => by fin_cases a <;> rfl

/-- The body's stored value is the layer on the loaded blocks. -/
theorem pay_eq (x0 : S512x2048.Idx → EReal) (x1 : S2048x47.Idx → EReal) (x2 : S1x47.Idx → EReal) :
    (k2_pay1 (F := Ideal) x0 x1 x2 : S512x47.Idx → EReal) = denseArr x0 x1 x2 := by
  unfold k2_pay1
  exact Cert.LibConcatDense.body_dense x0 x1 x2 _ _ _ _

/-- The printed index maps over the grid: the operand's and the output's block index is (t, 0), the weights' and the
    bias's (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The operand's block at point t is rows 512·t … of the operand. -/
theorem xblk_apply (c : Dev nD) (t : Fin cfg2.N) (p : Fin 512) (k : Fin 2048) (r : Fin 512) (hr : r.val = t.val * 512 + p.val) :
    (iblk2 V c 0 t : S512x2048.Idx → EReal) (ix2 p k) = xarr V c (ix2 r k) := by
  obtain ⟨e0, e1, -⟩ := idx_facts t
  unfold iblk2
  rw [View.read_apply]
  show V c main_v74 _ = V c main_v74 _
  congr 1
  funext a
  apply Fin.ext
  match a with
  | ⟨0, _⟩ => show win2_0.index t 0 * 512 + 1 * p.val = r.val; omega
  | ⟨1, _⟩ => show win2_0.index t 1 * 2048 + 1 * k.val = k.val; omega

/-- The weights' block at every point is the whole array. -/
theorem wblk_eq (c : Dev nD) (t : Fin cfg2.N) : (iblk2 V c 1 t : S2048x47.Idx → EReal) = warr V c := by
  obtain ⟨-, -, e2, e3, -⟩ := idx_facts t
  funext y
  unfold iblk2
  rw [View.read_apply]
  show V c main_v75 _ = V c main_v75 _
  congr 1
  funext a
  apply Fin.ext
  match a with
  | ⟨0, _⟩ => show win2_1.index t 0 * 2048 + 1 * (y 0).val = (y 0).val; omega
  | ⟨1, _⟩ => show win2_1.index t 1 * 47 + 1 * (y 1).val = (y 1).val; omega

/-- The bias row's block at every point is the whole row. -/
theorem bblk_eq (c : Dev nD) (t : Fin cfg2.N) : (iblk2 V c 2 t : S1x47.Idx → EReal) = barr V c := by
  obtain ⟨-, -, -, -, e4, e5, -⟩ := idx_facts t
  funext y
  unfold iblk2
  rw [View.read_apply]
  show V c main_v76 _ = V c main_v76 _
  congr 1
  funext a
  apply Fin.ext
  match a with
  | ⟨0, _⟩ => show win2_2.index t 0 * 1 + 1 * (y 0).val = (y 0).val; omega
  | ⟨1, _⟩ => show win2_2.index t 1 * 47 + 1 * (y 1).val = (y 1).val; omega

/-- Where entry (p, q) of the output's block at point t lies in the output array: row 512·t + p, column q. -/
theorem oemb (t : Fin cfg2.N) (p : Fin 512) (q : Fin 47) (r : Fin 512) (hr : r.val = t.val * 512 + p.val) :
    (((cfg2.win 3).blk t).view.emb (ix2 p q : S512x47.Idx) : S512x47.Idx) = ix2 r q := by
  obtain ⟨-, -, -, -, -, -, e6, e7⟩ := idx_facts t
  funext a
  apply Fin.ext
  match a with
  | ⟨0, _⟩ => show win2_3.index t 0 * 512 + 1 * p.val = r.val; omega
  | ⟨1, _⟩ => show win2_3.index t 1 * 47 + 1 * q.val = q.val; omega

/-- Entry by entry, the layer on point t's blocks is the layer on the whole arrays at the entry's place in the array. -/
theorem block_entry (c : Dev nD) (t : Fin cfg2.N) (j : S512x47.Idx) :
    (denseArr (iblk2 V c 0 t : S512x2048.Idx → EReal) (iblk2 V c 1 t : S2048x47.Idx → EReal) (iblk2 V c 2 t : S1x47.Idx → EReal)) j
      = result V c (((cfg2.win 3).blk t).view.emb j) := by
  obtain ⟨p, q, rfl⟩ : ∃ (p : Fin 512) (q : Fin 47), j = ix2 p q := ⟨j 0, j 1, eq_ix2 j⟩
  have ht : t.val < 1 := by have h1 := t.isLt; have h2 : cfg2.N = 1 := N_2; omega
  have hr : t.val * 512 + p.val < 512 := by have := p.isLt; omega
  rw [oemb t p q ⟨t.val * 512 + p.val, hr⟩ rfl, wblk_eq, bblk_eq]
  show (denseArr (iblk2 V c 0 t : S512x2048.Idx → EReal) (warr V c) (barr V c)) (ix2 p q)
    = (denseArr (xarr V c) (warr V c) (barr V c)) (ix2 ⟨t.val * 512 + p.val, hr⟩ q)
  simp only [denseArr_apply, xblk_apply V c t p _ ⟨t.val * 512 + p.val, hr⟩ rfl]

/-- What point t writes back is block t of the layer on the whole arrays. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S512x2048) hz, View.ld_unit_zero (S := S2048x47) hz, View.ld_unit_zero (S := S1x47) hz]
  rw [pay_eq]
  funext j
  exact block_entry V c t j

/-- The output array after the region is the layer on all rows: row r lies in the block of point r / 512. -/
theorem final (c : Dev nD) : (dat2 V c).arrAt 3 cfg2.N = result V c :=
  (dat2 V c).arrAt_eq_of_cover 3 (result V c) (fun t _ => flushed_eq V c t) fun i => by
    have hi0 : (i 0 : Nat) < 512 := (i 0).isLt
    have hi1 : (i 1 : Nat) < 47 := (i 1).isLt
    have hN : cfg2.N = 1 := N_2
    have hlt : (i 0 : Nat) / 512 < cfg2.N := by rw [hN]; omega
    obtain ⟨t, ht⟩ : ∃ t : Fin cfg2.N, t.val = (i 0 : Nat) / 512 := ⟨⟨_, hlt⟩, rfl⟩
    obtain ⟨-, -, -, -, -, -, e6, e7⟩ := idx_facts t
    refine ⟨t, flush2_3 t, ?_⟩
    show i ∈ ((View.whole main_v77).slice (win2_3.rect t)).set
    rw [View.set_slice_whole, Rect.mem_set_unit]
    intro a
    match a with
    | ⟨0, _⟩ =>
      show win2_3.index _ 0 * 512 ≤ (i 0 : Nat) ∧ (i 0 : Nat) < win2_3.index _ 0 * 512 + 512
      rw [e6, ht]; omega
    | ⟨1, _⟩ =>
      show win2_3.index _ 1 * 47 ≤ (i 1 : Nat) ∧ (i 1 : Nat) < win2_3.index _ 1 * 47 + 47
      rw [e7]; omega

end Cert.KernelIdeal.Region2
-- ==== Proof.KernelHost0.lean ====
/-
  The host operations in front of one of the program's regions, read back: from the node features h, the edge lists and the
  layer's parameters they prepare the region's three operands — the nodes' own rows and the mean of their neighbours'
  rows set side by side (gather the source rows, add them into their target rows, divide by the in-degree clipped below
  at one), the two weight matrices stacked, both changed to a narrower float format, and the bias as a one-row matrix.
  Stated for any contents W of the buffers in front of the stretch.
-/
import proofs.«162153_j82291573392195_1_alg».proof.Proof.Gen.KernelIdeal.Frame
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

variable {F : FTy → Type} [FloatOps F]

/-- The mean of the neighbours' rows. -/
def mean (x : (⟨S540672x256, .f32⟩ : BufTy).Contents (Elt F)) (src dst : (⟨S506880, .i32⟩ : BufTy).Contents (Elt F)) : (⟨S33792x256, .f32⟩ : BufTy).Contents (Elt F) :=
  Host.divf (Host.scatterAdd scatter_S33792x256_S506880x1_S506880x256_1_0_0_1 (broadcastInDim S33792x256 ![] bcast_S_S33792x256 (constant S_ .f32 0x00000000#32)) (broadcastInDim S506880x1 ![0] bcast_S506880_S506880x1_0 dst) (Host.gather gather_S540672x256_S506880x1_S506880x256_1_0_n_n_0_1_1256 x (broadcastInDim S506880x1 ![0] bcast_S506880_S506880x1_0 (select (cmpi .slt src (broadcastInDim S506880 ![] bcast_S_S506880 (constantI S_ 32 0#32))) (addi src (broadcastInDim S506880 ![] bcast_S_S506880 (constantI S_ 32 540672#32))) src)))) (broadcastInDim S33792x256 ![0, 1] bcast_S33792x1_S33792x256_0_1 (broadcastInDim S33792x1 ![0] bcast_S33792_S33792x1_0 (maximumf (Host.scatterAdd scatter_S33792_S506880x1_S506880_n_0_0_1 (broadcastInDim S33792 ![] bcast_S_S33792 (constant S_ .f32 0x00000000#32)) (broadcastInDim S506880x1 ![0] bcast_S506880_S506880x1_0 dst) (broadcastInDim S506880 ![] bcast_S_S506880 (constant S_ .f32 0x3F800000#32))) (broadcastInDim S33792 ![] bcast_S_S33792 (constant S_ .f32 0x3F800000#32)))))

/-- The region's first operand: own rows and neighbours' mean side by side, in the narrower format. -/
def xin (x : (⟨S540672x256, .f32⟩ : BufTy).Contents (Elt F)) (src dst : (⟨S506880, .i32⟩ : BufTy).Contents (Elt F)) : (⟨S33792x512, .bf16⟩ : BufTy).Contents (Elt F) :=
  truncf .bf16 (concatenate S33792x512 1 [⟨S33792x256, extractStridedSlice S33792x256 ![0, 0] x slices_S540672x256_S33792x256_0_0⟩, ⟨S33792x256, mean x src dst⟩] concatenates_S33792x256_S33792x256_S33792x512_d1) bitsLt_bf16_f32

/-- The region's second operand: the two weight matrices stacked, in the narrower format. -/
def win (Ws Wn : (⟨S256x1024, .f32⟩ : BufTy).Contents (Elt F)) : (⟨S512x1024, .bf16⟩ : BufTy).Contents (Elt F) :=
  truncf .bf16 (concatenate S512x1024 0 [⟨S256x1024, Ws⟩, ⟨S256x1024, Wn⟩] concatenates_S256x1024_S256x1024_S512x1024_d0) bitsLt_bf16_f32

/-- The region's third operand: the bias as a one-row matrix. -/
def bin (b : (⟨S1024, .f32⟩ : BufTy).Contents (Elt F)) : (⟨S1x1024, .f32⟩ : BufTy).Contents (Elt F) :=
  shapeCast S1x1024 b shapeCasts_S1024_S1x1024

variable (W : Valuation τ sig (Elt F))

set_option maxHeartbeats 16000000 in
theorem x_eq : StableHlo.after hostOps0 W (Proc.devRef .tc main_v22)
    = xin (W (Proc.devRef .tc main_arg0)) (W (Proc.devRef .tc main_arg1)) (W (Proc.devRef .tc main_arg2)) := by
  after_results
  rfl

set_option maxHeartbeats 16000000 in
theorem w_eq : StableHlo.after hostOps0 W (Proc.devRef .tc main_v23)
    = win (W (Proc.devRef .tc main_arg7)) (W (Proc.devRef .tc main_arg8)) := by
  after_results
  rfl

set_option maxHeartbeats 16000000 in
theorem b_eq : StableHlo.after hostOps0 W (Proc.devRef .tc main_v24) = bin (W (Proc.devRef .tc main_arg9)) := by
  after_results
  rfl

end Cert.KernelIdeal.Stretch0

end
-- ==== Proof.KernelHost1.lean ====
/-
  The host operations in front of one of the program's regions, read back: from the node features h, the edge lists and the
  layer's parameters they prepare the region's three operands — the nodes' own rows and the mean of their neighbours'
  rows set side by side (gather the source rows, add them into their target rows, divide by the in-degree clipped below
  at one), the two weight matrices stacked, both changed to a narrower float format, and the bias as a one-row matrix.
  Stated for any contents W of the buffers in front of the stretch.
-/
import proofs.«162153_j82291573392195_1_alg».proof.Proof.Gen.KernelIdeal.Frame
import Idealize.ShloMosaic.Lib.StableHlo.Run

set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.StableHlo

variable {F : FTy → Type} [FloatOps F]

/-- The mean of the neighbours' rows. -/
def mean (h1 : (⟨S33792x1024, .f32⟩ : BufTy).Contents (Elt F)) (src dst : (⟨S30720, .i32⟩ : BufTy).Contents (Elt F)) : (⟨S3072x1024, .f32⟩ : BufTy).Contents (Elt F) :=
  Host.divf (Host.scatterAdd scatter_S3072x1024_S30720x1_S30720x1024_1_0_0_1 (broadcastInDim S3072x1024 ![] bcast_S_S3072x1024 (constant S_ .f32 0x00000000#32)) (broadcastInDim S30720x1 ![0] bcast_S30720_S30720x1_0 dst) (Host.gather gather_S33792x1024_S30720x1_S30720x1024_1_0_n_n_0_1_11024 h1 (broadcastInDim S30720x1 ![0] bcast_S30720_S30720x1_0 (select (cmpi .slt src (broadcastInDim S30720 ![] bcast_S_S30720 (constantI S_ 32 0#32))) (addi src (broadcastInDim S30720 ![] bcast_S_S30720 (constantI S_ 32 33792#32))) src)))) (broadcastInDim S3072x1024 ![0, 1] bcast_S3072x1_S3072x1024_0_1 (broadcastInDim S3072x1 ![0] bcast_S3072_S3072x1_0 (maximumf (Host.scatterAdd scatter_S3072_S30720x1_S30720_n_0_0_1 (broadcastInDim S3072 ![] bcast_S_S3072 (constant S_ .f32 0x00000000#32)) (broadcastInDim S30720x1 ![0] bcast_S30720_S30720x1_0 dst) (broadcastInDim S30720 ![] bcast_S_S30720 (constant S_ .f32 0x3F800000#32))) (broadcastInDim S3072 ![] bcast_S_S3072 (constant S_ .f32 0x3F800000#32)))))

/-- The region's first operand: own rows and neighbours' mean side by side, in the narrower format. -/
def xin (h1 : (⟨S33792x1024, .f32⟩ : BufTy).Contents (Elt F)) (src dst : (⟨S30720, .i32⟩ : BufTy).Contents (Elt F)) : (⟨S3072x2048, .bf16⟩ : BufTy).Contents (Elt F) :=
  truncf .bf16 (concatenate S3072x2048 1 [⟨S3072x1024, extractStridedSlice S3072x1024 ![0, 0] h1 slices_S33792x1024_S3072x1024_0_0⟩, ⟨S3072x1024, mean h1 src dst⟩] concatenates_S3072x1024_S3072x1024_S3072x2048_d1) bitsLt_bf16_f32

/-- The region's second operand: the two weight matrices stacked, in the narrower format. -/
def win (Ws Wn : (⟨S1024x1024, .f32⟩ : BufTy).Contents (Elt F)) : (⟨S2048x1024, .bf16⟩ : BufTy).Contents (Elt F) :=
  truncf .bf16 (concatenate S2048x1024 0 [⟨S1024x1024, Ws⟩, ⟨S1024x1024, Wn⟩] concatenates_S1024x1024_S1024x1024_S2048x1024_d0) bitsLt_bf16_f32

/-- The region's third operand: the bias as a one-row matrix. -/
def bin (b : (⟨S1024, .f32⟩ : BufTy).Contents (Elt F)) : (⟨S1x1024, .f32⟩ : BufTy).Contents (Elt F) :=
  shapeCast S1x1024 b shapeCasts_S1024_S1x1024

variable (W : Valuation τ sig (Elt F))

set_option maxHeartbeats 16000000 in
theorem x_eq : StableHlo.after hostOps1 W (Proc.devRef .tc main_v48)
    = xin (W (Proc.devRef .tc main_v25)) (W (Proc.devRef .tc main_arg3)) (W (Proc.devRef .tc main_arg4)) := by
  after_results
  rfl

set_option maxHeartbeats 16000000 in
theorem w_eq : StableHlo.after hostOps1 W (Proc.devRef .tc main_v49)
    = win (W (Proc.devRef .tc main_arg10)) (W (Proc.devRef .tc main_arg11)) := by
  after_results
  rfl

set_option maxHeartbeats 16000000 in
theorem b_eq : StableHlo.after hostOps1 W (Proc.devRef .tc main_v50) = bin (W (Proc.devRef .tc main_arg12)) := by
  after_results
  rfl

end Cert.KernelIdeal.Stretch1

end
-- ==== Proof.KernelHost2.lean ====
/-
  The host operations in front of one of the program's regions, read back: from the node features h, the edge lists and the
  layer's parameters they prepare the region's three operands — the nodes' own rows and the mean of their neighbours'
  rows set side by side (gather the source rows, add them into their target rows, divide by the in-degree clipped below
  at one), the two weight matrices stacked, both changed to a narrower float format, and the bias as a one-row matrix.
  Stated for any contents W of the buffers in front of the stretch.
-/
import proofs.«162153_j82291573392195_1_alg».proof.Proof.Gen.KernelIdeal.Frame
import Idealize.ShloMosaic.Lib.StableHlo.Run

set_option maxRecDepth 16384

noncomputable section

namespace Cert.KernelIdeal.Stretch2

open Cert.KernelIdeal Cert.KernelIdeal.Gen
open Idealize.ShloMosaic Idealize.ShloMosaic.TcCoe Idealize.SL.Sem Idealize.ShloMosaic.StableHlo

variable {F : FTy → Type} [FloatOps F]

/-- The mean of the neighbours' rows. -/
def mean (h2 : (⟨S3072x1024, .f32⟩ : BufTy).Contents (Elt F)) (src dst : (⟨S2560, .i32⟩ : BufTy).Contents (Elt F)) : (⟨S512x1024, .f32⟩ : BufTy).Contents (Elt F) :=
  Host.divf (Host.scatterAdd scatter_S512x1024_S2560x1_S2560x1024_1_0_0_1 (broadcastInDim S512x1024 ![] bcast_S_S512x1024 (constant S_ .f32 0x00000000#32)) (broadcastInDim S2560x1 ![0] bcast_S2560_S2560x1_0 dst) (Host.gather gather_S3072x1024_S2560x1_S2560x1024_1_0_n_n_0_1_11024 h2 (broadcastInDim S2560x1 ![0] bcast_S2560_S2560x1_0 (select (cmpi .slt src (broadcastInDim S2560 ![] bcast_S_S2560 (constantI S_ 32 0#32))) (addi src (broadcastInDim S2560 ![] bcast_S_S2560 (constantI S_ 32 3072#32))) src)))) (broadcastInDim S512x1024 ![0, 1] bcast_S512x1_S512x1024_0_1 (broadcastInDim S512x1 ![0] bcast_S512_S512x1_0 (maximumf (Host.scatterAdd scatter_S512_S2560x1_S2560_n_0_0_1 (broadcastInDim S512 ![] bcast_S_S512 (constant S_ .f32 0x00000000#32)) (broadcastInDim S2560x1 ![0] bcast_S2560_S2560x1_0 dst) (broadcastInDim S2560 ![] bcast_S_S2560 (constant S_ .f32 0x3F800000#32))) (broadcastInDim S512 ![] bcast_S_S512 (constant S_ .f32 0x3F800000#32)))))

/-- The region's first operand: own rows and neighbours' mean side by side, in the narrower format. -/
def xin (h2 : (⟨S3072x1024, .f32⟩ : BufTy).Contents (Elt F)) (src dst : (⟨S2560, .i32⟩ : BufTy).Contents (Elt F)) : (⟨S512x2048, .bf16⟩ : BufTy).Contents (Elt F) :=
  truncf .bf16 (concatenate S512x2048 1 [⟨S512x1024, extractStridedSlice S512x1024 ![0, 0] h2 slices_S3072x1024_S512x1024_0_0⟩, ⟨S512x1024, mean h2 src dst⟩] concatenates_S512x1024_S512x1024_S512x2048_d1) bitsLt_bf16_f32

/-- The region's second operand: the two weight matrices stacked, in the narrower format. -/
def win (Ws Wn : (⟨S1024x47, .f32⟩ : BufTy).Contents (Elt F)) : (⟨S2048x47, .bf16⟩ : BufTy).Contents (Elt F) :=
  truncf .bf16 (concatenate S2048x47 0 [⟨S1024x47, Ws⟩, ⟨S1024x47, Wn⟩] concatenates_S1024x47_S1024x47_S2048x47_d0) bitsLt_bf16_f32

/-- The region's third operand: the bias as a one-row matrix. -/
def bin (b : (⟨S47, .f32⟩ : BufTy).Contents (Elt F)) : (⟨S1x47, .f32⟩ : BufTy).Contents (Elt F) :=
  shapeCast S1x47 b shapeCasts_S47_S1x47

variable (W : Valuation τ sig (Elt F))

set_option maxHeartbeats 16000000 in
theorem x_eq : StableHlo.after hostOps2 W (Proc.devRef .tc main_v74)
    = xin (W (Proc.devRef .tc main_v51)) (W (Proc.devRef .tc main_arg5)) (W (Proc.devRef .tc main_arg6)) := by
  after_results
  rfl

set_option maxHeartbeats 16000000 in
theorem w_eq : StableHlo.after hostOps2 W (Proc.devRef .tc main_v75)
    = win (W (Proc.devRef .tc main_arg13)) (W (Proc.devRef .tc main_arg14)) := by
  after_results
  rfl

set_option maxHeartbeats 16000000 in
theorem b_eq : StableHlo.after hostOps2 W (Proc.devRef .tc main_v76) = bin (W (Proc.devRef .tc main_arg15)) := by
  after_results
  rfl

end Cert.KernelIdeal.Stretch2

end
-- ==== Proof.KernelValue.lean ====
/-
  The kernel program's result as three layers, one applied to the other. Each region leaves the dense layer of its
  three operands in its output array; the host operations in front of a region prepare those operands from the
  previous layer's output (or the input features), the edge lists and the layer's parameters; no host operation and
  no region writes an argument. Walking back from the last segment boundary, the result buffer holds the third layer
  of the second of the first, of the arguments as launched.
-/
import proofs.«162153_j82291573392195_1_alg».proof.Proof.Gen.KernelIdeal.Frame
import proofs.«162153_j82291573392195_1_alg».proof.Proof.Region0
import proofs.«162153_j82291573392195_1_alg».proof.Proof.Region1
import proofs.«162153_j82291573392195_1_alg».proof.Proof.Region2
import proofs.«162153_j82291573392195_1_alg».proof.Proof.KernelHost0
import proofs.«162153_j82291573392195_1_alg».proof.Proof.KernelHost1
import proofs.«162153_j82291573392195_1_alg».proof.Proof.KernelHost2

set_option maxRecDepth 16384

noncomputable section

namespace Cert.KernelIdeal.Whole

open Cert.KernelIdeal Cert.KernelIdeal.Gen
open Idealize.ShloMosaic Idealize.ShloMosaic.TcCoe Idealize.SL.Sem
open Cert.LibConcatDense (denseArr reluArr)

/-! ## The three layers as the kernel's program computes them -/

def layer0 (x : S540672x256.Idx → EReal) (src dst : (⟨S506880, .i32⟩ : BufTy).Contents (Elt Ideal))
    (Ws Wn : S256x1024.Idx → EReal) (b : S1024.Idx → EReal) : S33792x1024.Idx → EReal :=
  reluArr (denseArr (R := 33792) (K' := 512) (N := 1024) (Stretch0.xin (F := Ideal) x src dst) (Stretch0.win (F := Ideal) Ws Wn) (Stretch0.bin (F := Ideal) b))

def layer1 (h1 : S33792x1024.Idx → EReal) (src dst : (⟨S30720, .i32⟩ : BufTy).Contents (Elt Ideal))
    (Ws Wn : S1024x1024.Idx → EReal) (b : S1024.Idx → EReal) : S3072x1024.Idx → EReal :=
  reluArr (denseArr (R := 3072) (K' := 2048) (N := 1024) (Stretch1.xin (F := Ideal) h1 src dst) (Stretch1.win (F := Ideal) Ws Wn) (Stretch1.bin (F := Ideal) b))

def layer2 (h2 : S3072x1024.Idx → EReal) (src dst : (⟨S2560, .i32⟩ : BufTy).Contents (Elt Ideal))
    (Ws Wn : S1024x47.Idx → EReal) (b : S47.Idx → EReal) : S512x47.Idx → EReal :=
  denseArr (R := 512) (K' := 2048) (N := 47) (Stretch2.xin (F := Ideal) h2 src dst) (Stretch2.win (F := Ideal) Ws Wn) (Stretch2.bin (F := Ideal) b)

variable (m : (ℓ : Loc nD τ sig) → Buf (Elt Ideal) ℓ) (ρ : Dev nD → PrngReg)

/-- The first layer's output, of the arguments as launched. -/
def out0 (c : Dev nD) : S33792x1024.Idx → EReal :=
  layer0 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))

/-- The second layer's output. -/
def out1 (c : Dev nD) : S3072x1024.Idx → EReal :=
  layer1 (out0 m c) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12))

/-- The third layer's output: the program's result. -/
def result (c : Dev nD) : S512x47.Idx → EReal :=
  layer2 (out1 m c) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15))

/-! ## The arguments at the boundaries in front of the second and the third stretch -/

theorem W2_main_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg3) := rfl
theorem W2_main_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg4) := rfl
theorem W2_main_arg10 (c : Dev nD) : W2 m ρ c (Proc.devRef .tc main_arg10) = m ((c.tc : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg10) := rfl
theorem W2_main_arg11 (c : Dev nD) : W2 m ρ c (Proc.devRef .tc main_arg11) = m ((c.tc : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg11) := rfl
theorem W2_main_arg12 (c : Dev nD) : W2 m ρ c (Proc.devRef .tc main_arg12) = m ((c.tc : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg12) := rfl
theorem W2_main_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg5) := rfl
theorem W2_main_arg6 (c : Dev nD) : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg6) := rfl
theorem W2_main_arg13 (c : Dev nD) : W2 m ρ c (Proc.devRef .tc main_arg13) = m ((c.tc : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg13) := rfl
theorem W2_main_arg14 (c : Dev nD) : W2 m ρ c (Proc.devRef .tc main_arg14) = m ((c.tc : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg14) := rfl
theorem W2_main_arg15 (c : Dev nD) : W2 m ρ c (Proc.devRef .tc main_arg15) = m ((c.tc : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg15) := rfl
theorem W4_main_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg5) := W2_main_arg5 m ρ c
theorem W4_main_arg6 (c : Dev nD) : W4 m ρ c (Proc.devRef .tc main_arg6) = m ((c.tc : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg6) := W2_main_arg6 m ρ c
theorem W4_main_arg13 (c : Dev nD) : W4 m ρ c (Proc.devRef .tc main_arg13) = m ((c.tc : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg13) := W2_main_arg13 m ρ c
theorem W4_main_arg14 (c : Dev nD) : W4 m ρ c (Proc.devRef .tc main_arg14) = m ((c.tc : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg14) := W2_main_arg14 m ρ c
theorem W4_main_arg15 (c : Dev nD) : W4 m ρ c (Proc.devRef .tc main_arg15) = m ((c.tc : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg15) := W2_main_arg15 m ρ c

/-! ## Each region's output array, walking forward -/

/-- After the first region its output array holds the first layer. -/
theorem arr0 (c : Dev nD) : W2 m ρ c (Proc.devRef .tc main_v25) = out0 m c := by
  refine (W2_arr m ρ c 3).trans ?_
  refine (Region0.final (V1 m ρ) c).trans ?_
  show reluArr (denseArr (R := 33792) (K' := 512) (N := 1024) (StableHlo.after hostOps0 (W0 m ρ c) (Proc.devRef .tc main_v22))
      (StableHlo.after hostOps0 (W0 m ρ c) (Proc.devRef .tc main_v23)) (StableHlo.after hostOps0 (W0 m ρ c) (Proc.devRef .tc main_v24))) = _
  rw [Stretch0.x_eq, Stretch0.w_eq, Stretch0.b_eq]
  rfl

/-- After the second region its output array holds the second layer. -/
theorem arr1 (c : Dev nD) : W4 m ρ c (Proc.devRef .tc main_v51) = out1 m c := by
  refine (W4_arr m ρ c 3).trans ?_
  refine (Region1.final (V3 m ρ) c).trans ?_
  show reluArr (denseArr (R := 3072) (K' := 2048) (N := 1024) (StableHlo.after hostOps1 (W2 m ρ c) (Proc.devRef .tc main_v48))
      (StableHlo.after hostOps1 (W2 m ρ c) (Proc.devRef .tc main_v49)) (StableHlo.after hostOps1 (W2 m ρ c) (Proc.devRef .tc main_v50))) = _
  rw [Stretch1.x_eq, Stretch1.w_eq, Stretch1.b_eq, arr0, W2_main_arg3, W2_main_arg4, W2_main_arg10, W2_main_arg11, W2_main_arg12]
  rfl

/-- After the third region the result buffer holds the third layer. -/
theorem arr2 (c : Dev nD) : W6 m ρ c (Proc.devRef .tc main_v77) = result m c := by
  refine (W6_arr m ρ c 3).trans ?_
  refine (Region2.final (V5 m ρ) c).trans ?_
  show denseArr (R := 512) (K' := 2048) (N := 47) (StableHlo.after hostOps2 (W4 m ρ c) (Proc.devRef .tc main_v74))
      (StableHlo.after hostOps2 (W4 m ρ c) (Proc.devRef .tc main_v75)) (StableHlo.after hostOps2 (W4 m ρ c) (Proc.devRef .tc main_v76)) = _
  rw [Stretch2.x_eq, Stretch2.w_eq, Stretch2.b_eq, arr1, W4_main_arg5, W4_main_arg6, W4_main_arg13, W4_main_arg14, W4_main_arg15]
  rfl

end Cert.KernelIdeal.Whole

end
-- ==== Proof.RefValue.lean ====
/-
  The reference's result as three graph layers, one applied to the other. Each layer takes the node features h, the
  edges' source and target lists, two weight matrices and a bias: it gathers the source rows, adds them into their
  target rows, divides each target row by its number of incoming edges clipped below at one (the mean of the
  neighbours), and returns  h[:rows] · W_self + mean · W_neigh + b , followed by a maximum with zero in the first two layers.
  The run's composed term is exactly these three functions nested.
-/
import proofs.«162153_j82291573392195_1_alg».proof.Proof.Gen.ReferenceIdeal.Run

set_option maxRecDepth 16384

noncomputable section

namespace Cert.ReferenceIdeal.Layers

open Cert.ReferenceIdeal Cert.ReferenceIdeal.Gen Idealize.ShloMosaic Idealize.ShloMosaic.TcCoe Idealize.SL.Sem

variable {F : FTy → Type} [FloatOps F]

/-- The mean of the neighbours' rows, first layer: gather, scatter-add, divide by the clipped in-degree. -/
def mean0 (x : (⟨S540672x256, .f32⟩ : BufTy).Contents (Elt F)) (src dst : (⟨S506880, .i32⟩ : BufTy).Contents (Elt F)) : (⟨S33792x256, .f32⟩ : BufTy).Contents (Elt F) :=
  Host.divf (Host.scatterAdd scatter_S33792x256_S506880x1_S506880x256_1_0_0_1 (broadcastInDim S33792x256 ![] bcast_S_S33792x256 (constant S_ .f32 0x00000000#32)) (broadcastInDim S506880x1 ![0] bcast_S506880_S506880x1_0 dst) (Host.gather gather_S540672x256_S506880x1_S506880x256_1_0_n_n_0_1_1256 x (broadcastInDim S506880x1 ![0] bcast_S506880_S506880x1_0 (select (cmpi .slt src (broadcastInDim S506880 ![] bcast_S_S506880 (constantI S_ 32 0#32))) (addi src (broadcastInDim S506880 ![] bcast_S_S506880 (constantI S_ 32 540672#32))) src)))) (broadcastInDim S33792x256 ![0, 1] bcast_S33792x1_S33792x256_0_1 (broadcastInDim S33792x1 ![0] bcast_S33792_S33792x1_0 (maximumf (Host.scatterAdd scatter_S33792_S506880x1_S506880_n_0_0_1 (broadcastInDim S33792 ![] bcast_S_S33792 (constant S_ .f32 0x00000000#32)) (broadcastInDim S506880x1 ![0] bcast_S506880_S506880x1_0 dst) (broadcastInDim S506880 ![] bcast_S_S506880 (constant S_ .f32 0x3F800000#32))) (broadcastInDim S33792 ![] bcast_S_S33792 (constant S_ .f32 0x3F800000#32)))))

/-- The first layer, rectified. -/
def layer0 (x : (⟨S540672x256, .f32⟩ : BufTy).Contents (Elt F)) (src dst : (⟨S506880, .i32⟩ : BufTy).Contents (Elt F))
    (Ws Wn : (⟨S256x1024, .f32⟩ : BufTy).Contents (Elt F)) (b : (⟨S1024, .f32⟩ : BufTy).Contents (Elt F)) : (⟨S33792x1024, .f32⟩ : BufTy).Contents (Elt F) :=
  maximumf (addf (addf (Host.dotGeneral dot_S33792x256_S256x1024_S33792x1024_1_0_0_1_n_n none (extractStridedSlice S33792x256 ![0, 0] x slices_S540672x256_S33792x256_0_0) Ws) (Host.dotGeneral dot_S33792x256_S256x1024_S33792x1024_1_0_0_1_n_n none (mean0 x src dst) Wn)) (broadcastInDim S33792x1024 ![0, 1] bcast_S1x1024_S33792x1024_0_1 (broadcastInDim S1x1024 ![1] bcast_S1024_S1x1024_1 b))) (broadcastInDim S33792x1024 ![] bcast_S_S33792x1024 (constant S_ .f32 0x00000000#32))

/-- The mean of the neighbours' rows, second layer. -/
def mean1 (h1 : (⟨S33792x1024, .f32⟩ : BufTy).Contents (Elt F)) (src dst : (⟨S30720, .i32⟩ : BufTy).Contents (Elt F)) : (⟨S3072x1024, .f32⟩ : BufTy).Contents (Elt F) :=
  Host.divf (Host.scatterAdd scatter_S3072x1024_S30720x1_S30720x1024_1_0_0_1 (broadcastInDim S3072x1024 ![] bcast_S_S3072x1024 (constant S_ .f32 0x00000000#32)) (broadcastInDim S30720x1 ![0] bcast_S30720_S30720x1_0 dst) (Host.gather gather_S33792x1024_S30720x1_S30720x1024_1_0_n_n_0_1_11024 h1 (broadcastInDim S30720x1 ![0] bcast_S30720_S30720x1_0 (select (cmpi .slt src (broadcastInDim S30720 ![] bcast_S_S30720 (constantI S_ 32 0#32))) (addi src (broadcastInDim S30720 ![] bcast_S_S30720 (constantI S_ 32 33792#32))) src)))) (broadcastInDim S3072x1024 ![0, 1] bcast_S3072x1_S3072x1024_0_1 (broadcastInDim S3072x1 ![0] bcast_S3072_S3072x1_0 (maximumf (Host.scatterAdd scatter_S3072_S30720x1_S30720_n_0_0_1 (broadcastInDim S3072 ![] bcast_S_S3072 (constant S_ .f32 0x00000000#32)) (broadcastInDim S30720x1 ![0] bcast_S30720_S30720x1_0 dst) (broadcastInDim S30720 ![] bcast_S_S30720 (constant S_ .f32 0x3F800000#32))) (broadcastInDim S3072 ![] bcast_S_S3072 (constant S_ .f32 0x3F800000#32)))))

/-- The second layer, rectified. -/
def layer1 (h1 : (⟨S33792x1024, .f32⟩ : BufTy).Contents (Elt F)) (src dst : (⟨S30720, .i32⟩ : BufTy).Contents (Elt F))
    (Ws Wn : (⟨S1024x1024, .f32⟩ : BufTy).Contents (Elt F)) (b : (⟨S1024, .f32⟩ : BufTy).Contents (Elt F)) : (⟨S3072x1024, .f32⟩ : BufTy).Contents (Elt F) :=
  maximumf (addf (addf (Host.dotGeneral dot_S3072x1024_S1024x1024_S3072x1024_1_0_0_1_n_n none (extractStridedSlice S3072x1024 ![0, 0] h1 slices_S33792x1024_S3072x1024_0_0) Ws) (Host.dotGeneral dot_S3072x1024_S1024x1024_S3072x1024_1_0_0_1_n_n none (mean1 h1 src dst) Wn)) (broadcastInDim S3072x1024 ![0, 1] bcast_S1x1024_S3072x1024_0_1 (broadcastInDim S1x1024 ![1] bcast_S1024_S1x1024_1 b))) (broadcastInDim S3072x1024 ![] bcast_S_S3072x1024 (constant S_ .f32 0x00000000#32))

/-- The mean of the neighbours' rows, third layer. -/
def mean2 (h2 : (⟨S3072x1024, .f32⟩ : BufTy).Contents (Elt F)) (src dst : (⟨S2560, .i32⟩ : BufTy).Contents (Elt F)) : (⟨S512x1024, .f32⟩ : BufTy).Contents (Elt F) :=
  Host.divf (Host.scatterAdd scatter_S512x1024_S2560x1_S2560x1024_1_0_0_1 (broadcastInDim S512x1024 ![] bcast_S_S512x1024 (constant S_ .f32 0x00000000#32)) (broadcastInDim S2560x1 ![0] bcast_S2560_S2560x1_0 dst) (Host.gather gather_S3072x1024_S2560x1_S2560x1024_1_0_n_n_0_1_11024 h2 (broadcastInDim S2560x1 ![0] bcast_S2560_S2560x1_0 (select (cmpi .slt src (broadcastInDim S2560 ![] bcast_S_S2560 (constantI S_ 32 0#32))) (addi src (broadcastInDim S2560 ![] bcast_S_S2560 (constantI S_ 32 3072#32))) src)))) (broadcastInDim S512x1024 ![0, 1] bcast_S512x1_S512x1024_0_1 (broadcastInDim S512x1 ![0] bcast_S512_S512x1_0 (maximumf (Host.scatterAdd scatter_S512_S2560x1_S2560_n_0_0_1 (broadcastInDim S512 ![] bcast_S_S512 (constant S_ .f32 0x00000000#32)) (broadcastInDim S2560x1 ![0] bcast_S2560_S2560x1_0 dst) (broadcastInDim S2560 ![] bcast_S_S2560 (constant S_ .f32 0x3F800000#32))) (broadcastInDim S512 ![] bcast_S_S512 (constant S_ .f32 0x3F800000#32)))))

/-- The third layer (no rectifier). -/
def layer2 (h2 : (⟨S3072x1024, .f32⟩ : BufTy).Contents (Elt F)) (src dst : (⟨S2560, .i32⟩ : BufTy).Contents (Elt F))
    (Ws Wn : (⟨S1024x47, .f32⟩ : BufTy).Contents (Elt F)) (b : (⟨S47, .f32⟩ : BufTy).Contents (Elt F)) : (⟨S512x47, .f32⟩ : BufTy).Contents (Elt F) :=
  addf (addf (Host.dotGeneral dot_S512x1024_S1024x47_S512x47_1_0_0_1_n_n none (extractStridedSlice S512x1024 ![0, 0] h2 slices_S3072x1024_S512x1024_0_0) Ws) (Host.dotGeneral dot_S512x1024_S1024x47_S512x47_1_0_0_1_n_n none (mean2 h2 src dst) Wn)) (broadcastInDim S512x47 ![0, 1] bcast_S1x47_S512x47_0_1 (broadcastInDim S1x47 ![1] bcast_S47_S1x47_1 b))

variable (m : (ℓ : Loc nD τ sig) → Buf (Elt F) ℓ)

/-- The three layers nested, of the arguments as launched. -/
def result (c : Dev nD) : (⟨S512x47, .f32⟩ : BufTy).Contents (Elt F) :=
  layer2 (layer1 (layer0 (m ((c.tc : Thread nD τ).loc main_arg0)) (m ((c.tc : Thread nD τ).loc main_arg1)) (m ((c.tc : Thread nD τ).loc main_arg2))
        (m ((c.tc : Thread nD τ).loc main_arg7)) (m ((c.tc : Thread nD τ).loc main_arg8)) (m ((c.tc : Thread nD τ).loc main_arg9)))
      (m ((c.tc : Thread nD τ).loc main_arg3)) (m ((c.tc : Thread nD τ).loc main_arg4))
      (m ((c.tc : Thread nD τ).loc main_arg10)) (m ((c.tc : Thread nD τ).loc main_arg11)) (m ((c.tc : Thread nD τ).loc main_arg12)))
    (m ((c.tc : Thread nD τ).loc main_arg5)) (m ((c.tc : Thread nD τ).loc main_arg6))
    (m ((c.tc : Thread nD τ).loc main_arg13)) (m ((c.tc : Thread nD τ).loc main_arg14)) (m ((c.tc : Thread nD τ).loc main_arg15))

/-- The run's composed term is the three layers nested. -/
theorem res_eq (c : Dev nD) : Cert.ReferenceIdeal.Value.res_main_v79 m c = result m c := by
  unfold Cert.ReferenceIdeal.Value.res_main_v79 result layer2 layer1 layer0 mean2 mean1 mean0
  rfl

end Cert.ReferenceIdeal.Layers

end
-- ==== Proof.Bridge.lean ====
/-
  The two programs compute the same three layers. In each layer the kernel program multiplies the nodes' own rows and
  the neighbours' mean, set side by side, with the two weight matrices stacked, and adds the bias; the reference
  multiplies each with its own matrix, adds the two products and then the bias. A sum over the joined coordinate is the
  sum over its first half plus the sum over its second half, and addition of extended reals is commutative and
  associative, so the two agree entry by entry with no finiteness needed; a change of float format changes no entry. The
  neighbours' mean (gather, scatter-add, divide by the clipped in-degree) is the same operations on both sides and is never opened.
-/
import proofs.«162153_j82291573392195_1_alg».proof.Proof.KernelValue
import proofs.«162153_j82291573392195_1_alg».proof.Proof.RefValue
import proofs.«162153_j82291573392195_1_alg».proof.Proof.LibConcatDense

set_option maxRecDepth 16384

noncomputable section

namespace Cert.Proof.Bridge

open Idealize.ShloMosaic Idealize.ShloMosaic.TcCoe Idealize.SL.Sem
open Cert.LibConcatDense (denseArr reluArr hostLayer joined_eq_host relu_host)

/-- Layer 1: the kernel program's spelling is the reference's. The neighbours' mean is the same term of the
    features and the edge lists on both sides; the rest is the joined product split in two. -/
theorem layer0_eq (h : Cert.KernelIdeal.S540672x256.Idx → EReal) (src dst : (⟨Cert.KernelIdeal.S506880, .i32⟩ : BufTy).Contents (Elt Ideal))
    (Ws Wn : Cert.KernelIdeal.S256x1024.Idx → EReal) (b : Cert.KernelIdeal.S1024.Idx → EReal) :
    Cert.KernelIdeal.Whole.layer0 h src dst Ws Wn b = Cert.ReferenceIdeal.Layers.layer0 (F := Ideal) h src dst Ws Wn b := by
  have hm : Cert.KernelIdeal.Stretch0.mean (F := Ideal) h src dst = Cert.ReferenceIdeal.Layers.mean0 (F := Ideal) h src dst := rfl
  unfold Cert.KernelIdeal.Whole.layer0 Cert.ReferenceIdeal.Layers.layer0 Cert.KernelIdeal.Stretch0.xin Cert.KernelIdeal.Stretch0.win Cert.KernelIdeal.Stretch0.bin
  rw [hm]
  generalize Cert.ReferenceIdeal.Layers.mean0 (F := Ideal) h src dst = B
  rw [joined_eq_host (R := 33792) (K := 256) (K2 := 512) (N := 1024) rfl _ B Ws Wn b _ _ _ _
    Cert.ReferenceIdeal.Gen.bcast_S1024_S1x1024_1 Cert.ReferenceIdeal.Gen.bcast_S1x1024_S33792x1024_0_1]
  exact (relu_host _ Cert.ReferenceIdeal.Gen.bcast_S_S33792x1024).symm

/-- Layer 2: the kernel program's spelling is the reference's. The neighbours' mean is the same term of the
    features and the edge lists on both sides; the rest is the joined product split in two. -/
theorem layer1_eq (h : Cert.KernelIdeal.S33792x1024.Idx → EReal) (src dst : (⟨Cert.KernelIdeal.S30720, .i32⟩ : BufTy).Contents (Elt Ideal))
    (Ws Wn : Cert.KernelIdeal.S1024x1024.Idx → EReal) (b : Cert.KernelIdeal.S1024.Idx → EReal) :
    Cert.KernelIdeal.Whole.layer1 h src dst Ws Wn b = Cert.ReferenceIdeal.Layers.layer1 (F := Ideal) h src dst Ws Wn b := by
  have hm : Cert.KernelIdeal.Stretch1.mean (F := Ideal) h src dst = Cert.ReferenceIdeal.Layers.mean1 (F := Ideal) h src dst := rfl
  unfold Cert.KernelIdeal.Whole.layer1 Cert.ReferenceIdeal.Layers.layer1 Cert.KernelIdeal.Stretch1.xin Cert.KernelIdeal.Stretch1.win Cert.KernelIdeal.Stretch1.bin
  rw [hm]
  generalize Cert.ReferenceIdeal.Layers.mean1 (F := Ideal) h src dst = B
  rw [joined_eq_host (R := 3072) (K := 1024) (K2 := 2048) (N := 1024) rfl _ B Ws Wn b _ _ _ _
    Cert.ReferenceIdeal.Gen.bcast_S1024_S1x1024_1 Cert.ReferenceIdeal.Gen.bcast_S1x1024_S3072x1024_0_1]
  exact (relu_host _ Cert.ReferenceIdeal.Gen.bcast_S_S3072x1024).symm

/-- Layer 3: the kernel program's spelling is the reference's. The neighbours' mean is the same term of the
    features and the edge lists on both sides; the rest is the joined product split in two. -/
theorem layer2_eq (h : Cert.KernelIdeal.S3072x1024.Idx → EReal) (src dst : (⟨Cert.KernelIdeal.S2560, .i32⟩ : BufTy).Contents (Elt Ideal))
    (Ws Wn : Cert.KernelIdeal.S1024x47.Idx → EReal) (b : Cert.KernelIdeal.S47.Idx → EReal) :
    Cert.KernelIdeal.Whole.layer2 h src dst Ws Wn b = Cert.ReferenceIdeal.Layers.layer2 (F := Ideal) h src dst Ws Wn b := by
  have hm : Cert.KernelIdeal.Stretch2.mean (F := Ideal) h src dst = Cert.ReferenceIdeal.Layers.mean2 (F := Ideal) h src dst := rfl
  unfold Cert.KernelIdeal.Whole.layer2 Cert.ReferenceIdeal.Layers.layer2 Cert.KernelIdeal.Stretch2.xin Cert.KernelIdeal.Stretch2.win Cert.KernelIdeal.Stretch2.bin
  rw [hm]
  generalize Cert.ReferenceIdeal.Layers.mean2 (F := Ideal) h src dst = B
  rw [joined_eq_host (R := 512) (K := 1024) (K2 := 2048) (N := 47) rfl _ B Ws Wn b _ _ _ _
    Cert.ReferenceIdeal.Gen.bcast_S47_S1x47_1 Cert.ReferenceIdeal.Gen.bcast_S1x47_S512x47_0_1]
  rfl

/-- From memories that agree on the arguments, the kernel program's three nested layers are the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Layers.result (F := Ideal) m' c = Cert.KernelIdeal.Whole.result m c := by
  unfold Cert.ReferenceIdeal.Layers.result Cert.KernelIdeal.Whole.result Cert.KernelIdeal.Whole.out1 Cert.KernelIdeal.Whole.out0
  rw [h0, h1, h2, h3, h4, h5, h6, h7, h8, h9, h10, h11, h12, h13, h14, h15, layer0_eq, layer1_eq, layer2_eq]

end Cert.Proof.Bridge

end
-- ==== Proof.lean ====
/-
  A three-layer graph network with mean aggregation: each layer gathers the neighbours' rows, averages them per
  target node (the sum divided by the in-degree clipped below at one), and returns own · W_self + mean · W_neigh + b,
  rectified in the first two layers. The kernel program runs each layer's dense part as one pallas_call over the
  own rows and the mean set side by side against the two matrices stacked; the reference adds two products.
  Both frames of the kernel program are its generated frame certificates; the reference's frame is its generated
  run with the result dropped; the idealization rewrote nothing. The value claim: the kernel program's run ends with
  the result buffer at three nested layers of the arguments (each region's output read off the frame run as one
  whole-array function, the host stretches read back), the reference's run at its own three nested layers, and layer by
  layer the two are equal on the extended reals because a sum over the joined coordinate splits in two.
-/
import proofs.«162153_j82291573392195_1_alg».proof.Defs
import proofs.«162153_j82291573392195_1_alg».proof.Proof.Gen.Kernel
import proofs.«162153_j82291573392195_1_alg».proof.Proof.Gen.Kernel.Skeleton
import proofs.«162153_j82291573392195_1_alg».proof.Proof.Gen.Kernel.Launch
import proofs.«162153_j82291573392195_1_alg».proof.Proof.Gen.Kernel.Points
import proofs.«162153_j82291573392195_1_alg».proof.Proof.Gen.Kernel.Frame
import proofs.«162153_j82291573392195_1_alg».proof.Proof.Gen.KernelIdeal
import proofs.«162153_j82291573392195_1_alg».proof.Proof.Gen.KernelIdeal.Skeleton
import proofs.«162153_j82291573392195_1_alg».proof.Proof.Gen.KernelIdeal.Launch
import proofs.«162153_j82291573392195_1_alg».proof.Proof.Gen.KernelIdeal.Points
import proofs.«162153_j82291573392195_1_alg».proof.Proof.Gen.KernelIdeal.Frame
import proofs.«162153_j82291573392195_1_alg».proof.Proof.Gen.ReferenceIdeal
import proofs.«162153_j82291573392195_1_alg».proof.Proof.Gen.ReferenceIdeal.Run
import proofs.«162153_j82291573392195_1_alg».proof.Proof.Gen.Pre_finite_inputs
import proofs.«162153_j82291573392195_1_alg».proof.Proof.KernelRun
import proofs.«162153_j82291573392195_1_alg».proof.Proof.KernelValue
import proofs.«162153_j82291573392195_1_alg».proof.Proof.RefValue
import proofs.«162153_j82291573392195_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the kernel program's three nested layers of the arguments, the arguments unchanged. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono (fun r h c => ⟨(h c).1.trans (Cert.KernelIdeal.Whole.arr2 m ρ c), (h c).2⟩)
      (Cert.KernelIdeal.Launched.run (F := Ideal) m ρ)
  · refine (θ_run Cert.ReferenceIdeal.defs _ _).mono (fun _ h c => ?_) (Cert.ReferenceIdeal.Value.run (F := Ideal) m' ρ')
    obtain ⟨h0, h1, h2, h3, h4, h5, h6, h7, h8, h9, h10, h11, h12, h13, h14, h15⟩ := hagree c
    exact ⟨(h c).1.trans ((Cert.ReferenceIdeal.Layers.res_eq m' c).trans
      (Cert.Proof.Bridge.result_eq m m' c h0 h1 h2 h3 h4 h5 h6 h7 h8 h9 h10 h11 h12 h13 h14 h15)), (h c).2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
